-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg9 : FVec F S128x256 .f32) (main_arg10 : FVec F S128x256 .f32) (main_arg11 : FVec F S256 .f32) (main_arg12 : FVec F S256x256 .f32) (main_arg13 : FVec F S256x256 .f32) (main_arg14 : FVec F S256 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_v48 main_v49 main_v50

def fn_part1 {F : FTy → Type} [FloatOps F] (main_arg6 : FVec F S256x128 .f32) (main_arg7 : FVec F S256x128 .f32) (main_arg8 : FVec F S128 .f32) (main_arg9 : FVec F S128x256 .f32) (main_arg10 : FVec F S128x256 .f32) (main_arg11 : FVec F S256 .f32) (main_arg12 : FVec F S256x256 .f32) (main_arg13 : FVec F S256x256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x256 .f32) (main_arg4 : FVec F S128x256 .f32) (main_arg5 : FVec F S256 .f32) (main_arg6 : FVec F S256x128 .f32) (main_arg7 : FVec F S256x128 .f32) (main_arg8 : FVec F S128 .f32) (main_arg9 : FVec F S128x256 .f32) (main_arg10 : FVec F S128x256 .f32) (main_arg11 : FVec F S256 .f32) (main_arg12 : FVec F S256x256 .f32) (main_arg13 : FVec F S256x256 .f32) (main_arg14 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S5000x256 : Shape := ⟨2, ![5000, 256]⟩
abbrev S800000x256 : Shape := ⟨2, ![800000, 256]⟩
abbrev S50000x512 : Shape := ⟨2, ![50000, 512]⟩
abbrev S512x128 : Shape := ⟨2, ![512, 128]⟩
abbrev S1x128 : Shape := ⟨2, ![1, 128]⟩
abbrev S5000x512 : Shape := ⟨2, ![5000, 512]⟩
abbrev S5000x128 : Shape := ⟨2, ![5000, 128]⟩
abbrev S512x256 : Shape := ⟨2, ![512, 256]⟩

abbrev nBuf : Space → Nat
  | .hbm => 112
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S128x256, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .bf16⟩
  | .hbm, ⟨45, _⟩ => ⟨S256x256, .f32⟩
  | .hbm, ⟨46, _⟩ => ⟨S256x256, .bf16⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S50000x512, .f32⟩
  | .hbm, ⟨65, _⟩ => ⟨S50000x512, .bf16⟩
  | .hbm, ⟨66, _⟩ => ⟨S512x128, .f32⟩
  | .hbm, ⟨67, _⟩ => ⟨S512x128, .bf16⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x256, .f32⟩
  | .hbm, ⟨86, _⟩ => ⟨S50000x256, .bf16⟩
  | .hbm, ⟨87, _⟩ => ⟨S256x256, .f32⟩
  | .hbm, ⟨88, _⟩ => ⟨S256x256, .bf16⟩
  | .hbm, ⟨89, _⟩ => ⟨S1x256, .f32⟩
  | .hbm, ⟨90, _⟩ => ⟨S50000x256, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x256, .f32⟩
  | .hbm, ⟨100, _⟩ => ⟨S_, .f32⟩
  | .hbm, ⟨101, _⟩ => ⟨S50000x256, .f32⟩
  | .hbm, ⟨102, _⟩ => ⟨S800000x1, .i32⟩
  | .hbm, ⟨103, _⟩ => ⟨S50000x256, .f32⟩
  | .hbm, ⟨104, _⟩ => ⟨S50000x256, .f32⟩
  | .hbm, ⟨105, _⟩ => ⟨S50000x256, .f32⟩
  | .hbm, ⟨106, _⟩ => ⟨S50000x512, .f32⟩
  | .hbm, ⟨107, _⟩ => ⟨S50000x512, .bf16⟩
  | .hbm, ⟨108, _⟩ => ⟨S512x256, .f32⟩
  | .hbm, ⟨109, _⟩ => ⟨S512x256, .bf16⟩
  | .hbm, ⟨110, _⟩ => ⟨S1x256, .f32⟩
  | .hbm, ⟨111, _⟩ => ⟨S50000x256, .f32⟩
  | .local _ .vmem, ⟨0, _⟩ => ⟨S5000x256, .bf16⟩
  | .local _ .vmem, ⟨1, _⟩ => ⟨S5000x256, .bf16⟩
  | .local _ .vmem, ⟨2, _⟩ => ⟨S256x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x512, .bf16⟩
  | .local _ .vmem, ⟨7, _⟩ => ⟨S5000x512, .bf16⟩
  | .local _ .vmem, ⟨8, _⟩ => ⟨S512x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .bf16⟩
  | .local _ .vmem, ⟨13, _⟩ => ⟨S5000x256, .bf16⟩
  | .local _ .vmem, ⟨14, _⟩ => ⟨S256x256, .bf16⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x512, .bf16⟩
  | .local _ .vmem, ⟨19, _⟩ => ⟨S5000x512, .bf16⟩
  | .local _ .vmem, ⟨20, _⟩ => ⟨S512x256, .bf16⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bitsLt_bf16_f32 : FTy.bits .bf16 < FTy.bits .f32
  concatenates_S128x256_S128x256_S256x256_d0 : Shape.Concatenates [S128x256, S128x256] S256x256 0
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  concatenates_S256x128_S256x128_S512x128_d0 : Shape.Concatenates [S256x128, S256x128] S512x128 0
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S256x256_S256x256_S512x256_d0 : Shape.Concatenates [S256x256, S256x256] S512x256 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x512_S512x128_S5000x128_1_0_0_1_n_n_wf : DotDims.WF S5000x512 S512x128 S5000x128 [1] [0] [0] [1] [] []
  dot_S5000x512_S512x256_S5000x256_1_0_0_1_n_n_wf : DotDims.WF S5000x512 S512x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .bf16 = 32 ∨ (Rect.block (s := S50000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S50000x512.size a
  hwx3_0 : ∀ i : grid3.Coords, EltTy.bits .bf16 = 32 ∨ (Rect.block (s := S50000x512) S5000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .bf16 = 32 ∨ (Rect.block (s := S512x256) S512x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf

abbrev win0_0 : Pipeline.Window sig grid0 :=
  Pipeline.Window.ofSpec (Memref.whole main_v22) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S128x256, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x256, .f32⟩
  | .hbm, ⟨109, _⟩ => ⟨S_, .f32⟩
  | .hbm, ⟨110, _⟩ => ⟨S50000x256, .f32⟩
  | .hbm, ⟨111, _⟩ => ⟨S800000x1, .i32⟩
  | .hbm, ⟨112, _⟩ => ⟨S50000x256, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S50000x256, .f32⟩
  | .hbm, ⟨117, _⟩ => ⟨S50000x256, .f32⟩
  | .hbm, ⟨118, _⟩ => ⟨S1x256, .f32⟩
  | .hbm, ⟨119, _⟩ => ⟨S50000x256, .f32⟩
  | .hbm, ⟨120, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_c_11 : Ref sig .tc := ⟨.hbm, 100, rfl⟩
abbrev main_v66 : Ref sig .tc := ⟨.hbm, 101, rfl⟩
abbrev main_v67 : Ref sig .tc := ⟨.hbm, 102, rfl⟩
abbrev main_c_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Dense.lean ====
/-
  One dense layer on the extended reals, and the one law this certificate needs about it.

  `dense M K N A W b` is the `M × N` array whose entry `(p, q)` is the inner product of row `p` of `A` with column `q` of
  `W`, a sum of `K` products, plus entry `q` of the bias row `b`.  When the contraction axis is a concatenation of two
  stretches of length `D` — `A = [h | n]` by columns and `W = [ws ; wn]` by rows — that one sum of `D + D` products is the
  sum over the first stretch plus the sum over the second: `h·ws + n·wn`.  Only commutativity and associativity of
  addition are used, which hold on the extended reals without any finiteness assumption.
-/
import Idealize.ShloMosaic.Lib.ValueIdx

noncomputable section

open scoped BigOperators

namespace Sage

open Idealize.ShloMosaic Idealize.ShloMosaic.ValueIdx

/-- The row coordinate of a rank-2 index, typed by the literal extent. -/
abbrev row {n0 n1 : Nat} (i : (⟨2, ![n0, n1]⟩ : Shape).Idx) : Fin n0 := ⟨(i 0).val, idx2_lt0 i⟩
/-- The column coordinate of a rank-2 index, typed by the literal extent. -/
abbrev col {n0 n1 : Nat} (i : (⟨2, ![n0, n1]⟩ : Shape).Idx) : Fin n1 := ⟨(i 1).val, idx2_lt1 i⟩

/-- Entry `(p, q)` is `∑ k, A (p, k) * W (k, q) + b (0, q)`. -/
def dense (M K N : Nat) (A : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => (∑ k : Fin K, A (ix2 (row i) k) * W (ix2 k (col i))) + b (ix2 (0 : Fin 1) (col i))

/-- The same layer clipped below at zero. -/
def denseRelu (M K N : Nat) (A : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => max (dense M K N A W b i) 0

theorem dense_ix2 (M K N : Nat) (A : (⟨2, ![M, K]⟩ : Shape).Idx → EReal) (W : (⟨2, ![K, N]⟩ : Shape).Idx → EReal)
    (b : (⟨2, ![1, N]⟩ : Shape).Idx → EReal) (p : Fin M) (q : Fin N) :
    dense M K N A W b (ix2 p q) = (∑ k : Fin K, A (ix2 p k) * W (ix2 k q)) + b (ix2 (0 : Fin 1) q) := rfl

theorem denseRelu_ix2 (M K N : Nat) (A : (⟨2, ![M, K]⟩ : Shape).Idx → EReal) (W : (⟨2, ![K, N]⟩ : Shape).Idx → EReal)
    (b : (⟨2, ![1, N]⟩ : Shape).Idx → EReal) (p : Fin M) (q : Fin N) :
    denseRelu M K N A W b (ix2 p q) = max ((∑ k : Fin K, A (ix2 p k) * W (ix2 k q)) + b (ix2 (0 : Fin 1) q)) 0 := rfl

/-- A sum over `D + D` terms is the sum over the first `D` plus the sum over the last `D`. -/
theorem sum_halves (D : Nat) (f : Fin (D + D) → EReal) :
    ∑ k, f k = (∑ k : Fin D, f (Fin.castAdd D k)) + ∑ k : Fin D, f (Fin.natAdd D k) :=
  Fin.sum_univ_add f

end Sage

end
-- ==== Proof.KHostDefs.lean ====
/-
  The host side of the kernel program, stage by stage, as functions of the arrays they read.

  Every layer gathers the rows of `h` named by the edge sources, sums them into the rows named by the edge destinations, and
  scales row `v` by `1 / max (deg v) 1` (`agg`); the layer's left operand is `[h | agg h]` by columns, its weights
  `[ws ; wn]` by rows, its bias the row `b`. The conversions to the 16-bit format are kept as printed; on the extended reals
  they change nothing.
-/
import proofs.«155320_j69733089018244_1_alg».proof.KernelIdeal

noncomputable section

namespace Cert.KernelIdeal.Host

open Cert.KernelIdeal Idealize.ShloMosaic

variable {F : FTy → Type} [FloatOps F] [Cert.KernelIdeal.Facts]
open Facts₀ Facts

/-- `1 / max (deg v) 1` as a column, `deg v` the number of edges whose destination is `v`. -/
def invdeg (dst : IVec S800000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The edge sources as gather start indices: a negative index counts from the end. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The mean of the in-neighbours' rows, 128 columns wide. -/
def agg128 (h : FVec F S50000x128 .f32) (src dst : IVec S800000 32) (inv : FVec F S50000x1 .f32) : FVec F S50000x128 .f32 :=
  mulf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (srcIdx src)))
    (broadcastInDim S50000x128 ![0, 1] bcast_S50000x1_S50000x128_0_1 inv)

/-- The mean of the in-neighbours' rows, 256 columns wide. -/
def agg256 (h : FVec F S50000x256 .f32) (src dst : IVec S800000 32) (inv : FVec F S50000x1 .f32) : FVec F S50000x256 .f32 :=
  mulf
    (Host.scatterAdd scatter_S50000x256_S800000x1_S800000x256_1_0_0_1 (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (srcIdx src)))
    (broadcastInDim S50000x256 ![0, 1] bcast_S50000x1_S50000x256_0_1 inv)

/-- `[h | n]` by columns, 128 + 128. -/
def lhs128 (h n : FVec F S50000x128 .f32) : FVec F S50000x256 .bf16 :=
  truncf .bf16 (concatenate S50000x256 1 [⟨S50000x128, h⟩, ⟨S50000x128, n⟩] concatenates_S50000x128_S50000x128_S50000x256_d1) bitsLt_bf16_f32

/-- `[h | n]` by columns, 256 + 256. -/
def lhs256 (h n : FVec F S50000x256 .f32) : FVec F S50000x512 .bf16 :=
  truncf .bf16 (concatenate S50000x512 1 [⟨S50000x256, h⟩, ⟨S50000x256, n⟩] concatenates_S50000x256_S50000x256_S50000x512_d1) bitsLt_bf16_f32

/-- `[ws ; wn]` by rows: two 128 × 256 into 256 × 256. -/
def wts128x256 (ws wn : FVec F S128x256 .f32) : FVec F S256x256 .bf16 :=
  truncf .bf16 (concatenate S256x256 0 [⟨S128x256, ws⟩, ⟨S128x256, wn⟩] concatenates_S128x256_S128x256_S256x256_d0) bitsLt_bf16_f32

/-- `[ws ; wn]` by rows: two 256 × 128 into 512 × 128. -/
def wts256x128 (ws wn : FVec F S256x128 .f32) : FVec F S512x128 .bf16 :=
  truncf .bf16 (concatenate S512x128 0 [⟨S256x128, ws⟩, ⟨S256x128, wn⟩] concatenates_S256x128_S256x128_S512x128_d0) bitsLt_bf16_f32

/-- `[ws ; wn]` by rows: two 256 × 256 into 512 × 256. -/
def wts256x256 (ws wn : FVec F S256x256 .f32) : FVec F S512x256 .bf16 :=
  truncf .bf16 (concatenate S512x256 0 [⟨S256x256, ws⟩, ⟨S256x256, wn⟩] concatenates_S256x256_S256x256_S512x256_d0) bitsLt_bf16_f32

/-- The bias as a row of 256. -/
def bias256 (b : FVec F S256 .f32) : FVec F S1x256 .f32 := shapeCast S1x256 b shapeCasts_S256_S1x256

/-- The bias as a row of 128. -/
def bias128 (b : FVec F S128 .f32) : FVec F S1x128 .f32 := shapeCast S1x128 b shapeCasts_S128_S1x128

end Cert.KernelIdeal.Host

end
-- ==== Proof.KHost.lean ====
/-
  The kernel program's host stretches read back: what each region's three input arrays hold when the region is entered,
  as the stage functions of the launch memory's argument arrays and of the previous region's output array.

  A stretch writes only its own results, and a region only its output array, so an argument array, and the inverse
  in-degree column the first stretch computes, are found unchanged at every later boundary.
-/
import proofs.«155320_j69733089018244_1_alg».proof.Proof.Gen.KernelIdeal.Frame
import proofs.«155320_j69733089018244_1_alg».proof.Proof.KHostDefs
import Idealize.ShloMosaic.Lib.StableHlo.Run

set_option maxRecDepth 16384

noncomputable section

namespace Cert.KernelIdeal.Gen

open Cert.KernelIdeal Cert.KernelIdeal.Host Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a host stretch writes holds after the stretch what it held before. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Region 0 is entered after the first stretch -/

theorem entry0_lhs (c : Dev nD) : W1 m ρ c (Proc.devRef .tc main_v22)
    = lhs128 (m ((c : Thread nD τ).loc main_arg0)) (agg128 (m ((c : Thread nD τ).loc main_arg0)) (m ((c : Thread nD τ).loc main_arg1)) (m ((c : Thread nD τ).loc main_arg2)) (invdeg (m ((c : Thread nD τ).loc main_arg2)))) := by
  show StableHlo.after hostOps0 (W0 m ρ c) (Proc.devRef .tc main_v22) = _
  unfold lhs128 agg128 invdeg srcIdx
  dsimp only [hostOps0]
  after_results_simp <;> rfl
theorem entry0_wts (c : Dev nD) : W1 m ρ c (Proc.devRef .tc main_v24) = wts128x256 (m ((c : Thread nD τ).loc main_arg3)) (m ((c : Thread nD τ).loc main_arg4)) := by
  show StableHlo.after hostOps0 (W0 m ρ c) (Proc.devRef .tc main_v24) = _
  unfold wts128x256
  dsimp only [hostOps0]
  after_results_simp <;> rfl
theorem entry0_bias (c : Dev nD) : W1 m ρ c (Proc.devRef .tc main_v25) = bias256 (m ((c : Thread nD τ).loc main_arg5)) := by
  show StableHlo.after hostOps0 (W0 m ρ c) (Proc.devRef .tc main_v25) = _
  unfold bias256
  dsimp only [hostOps0]
  after_results_simp <;> rfl

/-! ## What the later stretches read besides the previous region's output: found as the first stretch left it -/

/-- The inverse in-degree column, computed once by the first stretch. -/
theorem invdeg_at1 (c : Dev nD) : W1 m ρ c (Proc.devRef .tc main_v8) = invdeg (m ((c : Thread nD τ).loc main_arg2)) := by
  show StableHlo.after hostOps0 (W0 m ρ c) (Proc.devRef .tc main_v8) = _
  unfold invdeg
  dsimp only [hostOps0]
  after_results_simp <;> rfl
theorem invdeg_at2 (c : Dev nD) : W2 m ρ c (Proc.devRef .tc main_v8) = invdeg (m ((c : Thread nD τ).loc main_arg2)) :=
  (W2_of_ne m ρ c main_v8 (by decide)).trans (invdeg_at1 m ρ c)
theorem invdeg_at4 (c : Dev nD) : W4 m ρ c (Proc.devRef .tc main_v8) = invdeg (m ((c : Thread nD τ).loc main_arg2)) :=
  (W4_of_ne m ρ c main_v8 (by decide)).trans ((by host_keeps : W3 m ρ c (Proc.devRef .tc main_v8) = W2 m ρ c (Proc.devRef .tc main_v8)).trans (invdeg_at2 m ρ c))
theorem invdeg_at6 (c : Dev nD) : W6 m ρ c (Proc.devRef .tc main_v8) = invdeg (m ((c : Thread nD τ).loc main_arg2)) :=
  (W6_of_ne m ρ c main_v8 (by decide)).trans ((by host_keeps : W5 m ρ c (Proc.devRef .tc main_v8) = W4 m ρ c (Proc.devRef .tc main_v8)).trans (invdeg_at4 m ρ c))

/-! ### At the exit of region 0 -/

theorem keep1_arg1 (c : Dev nD) : W2 m ρ c (Proc.devRef .tc main_arg1) = (m ((c : Thread nD τ).loc main_arg1)) :=
  (W2_of_ne m ρ c main_arg1 (by decide)).trans (by host_keeps)
theorem keep1_arg2 (c : Dev nD) : W2 m ρ c (Proc.devRef .tc main_arg2) = (m ((c : Thread nD τ).loc main_arg2)) :=
  (W2_of_ne m ρ c main_arg2 (by decide)).trans (by host_keeps)
theorem keep1_arg6 (c : Dev nD) : W2 m ρ c (Proc.devRef .tc main_arg6) = (m ((c : Thread nD τ).loc main_arg6)) :=
  (W2_of_ne m ρ c main_arg6 (by decide)).trans (by host_keeps)
theorem keep1_arg7 (c : Dev nD) : W2 m ρ c (Proc.devRef .tc main_arg7) = (m ((c : Thread nD τ).loc main_arg7)) :=
  (W2_of_ne m ρ c main_arg7 (by decide)).trans (by host_keeps)
theorem keep1_arg8 (c : Dev nD) : W2 m ρ c (Proc.devRef .tc main_arg8) = (m ((c : Thread nD τ).loc main_arg8)) :=
  (W2_of_ne m ρ c main_arg8 (by decide)).trans (by host_keeps)
theorem keep1_arg9 (c : Dev nD) : W2 m ρ c (Proc.devRef .tc main_arg9) = (m ((c : Thread nD τ).loc main_arg9)) :=
  (W2_of_ne m ρ c main_arg9 (by decide)).trans (by host_keeps)
theorem keep1_arg10 (c : Dev nD) : W2 m ρ c (Proc.devRef .tc main_arg10) = (m ((c : Thread nD τ).loc main_arg10)) :=
  (W2_of_ne m ρ c main_arg10 (by decide)).trans (by host_keeps)
theorem keep1_arg11 (c : Dev nD) : W2 m ρ c (Proc.devRef .tc main_arg11) = (m ((c : Thread nD τ).loc main_arg11)) :=
  (W2_of_ne m ρ c main_arg11 (by decide)).trans (by host_keeps)
theorem keep1_arg12 (c : Dev nD) : W2 m ρ c (Proc.devRef .tc main_arg12) = (m ((c : Thread nD τ).loc main_arg12)) :=
  (W2_of_ne m ρ c main_arg12 (by decide)).trans (by host_keeps)
theorem keep1_arg13 (c : Dev nD) : W2 m ρ c (Proc.devRef .tc main_arg13) = (m ((c : Thread nD τ).loc main_arg13)) :=
  (W2_of_ne m ρ c main_arg13 (by decide)).trans (by host_keeps)
theorem keep1_arg14 (c : Dev nD) : W2 m ρ c (Proc.devRef .tc main_arg14) = (m ((c : Thread nD τ).loc main_arg14)) :=
  (W2_of_ne m ρ c main_arg14 (by decide)).trans (by host_keeps)

/-! ### At the exit of region 1 -/

theorem keep2_arg1 (c : Dev nD) : W4 m ρ c (Proc.devRef .tc main_arg1) = (m ((c : Thread nD τ).loc main_arg1)) :=
  (W4_of_ne m ρ c main_arg1 (by decide)).trans ((by host_keeps : W3 m ρ c (Proc.devRef .tc main_arg1) = W2 m ρ c (Proc.devRef .tc main_arg1)).trans (keep1_arg1 m ρ c))
theorem keep2_arg2 (c : Dev nD) : W4 m ρ c (Proc.devRef .tc main_arg2) = (m ((c : Thread nD τ).loc main_arg2)) :=
  (W4_of_ne m ρ c main_arg2 (by decide)).trans ((by host_keeps : W3 m ρ c (Proc.devRef .tc main_arg2) = W2 m ρ c (Proc.devRef .tc main_arg2)).trans (keep1_arg2 m ρ c))
theorem keep2_arg9 (c : Dev nD) : W4 m ρ c (Proc.devRef .tc main_arg9) = (m ((c : Thread nD τ).loc main_arg9)) :=
  (W4_of_ne m ρ c main_arg9 (by decide)).trans ((by host_keeps : W3 m ρ c (Proc.devRef .tc main_arg9) = W2 m ρ c (Proc.devRef .tc main_arg9)).trans (keep1_arg9 m ρ c))
theorem keep2_arg10 (c : Dev nD) : W4 m ρ c (Proc.devRef .tc main_arg10) = (m ((c : Thread nD τ).loc main_arg10)) :=
  (W4_of_ne m ρ c main_arg10 (by decide)).trans ((by host_keeps : W3 m ρ c (Proc.devRef .tc main_arg10) = W2 m ρ c (Proc.devRef .tc main_arg10)).trans (keep1_arg10 m ρ c))
theorem keep2_arg11 (c : Dev nD) : W4 m ρ c (Proc.devRef .tc main_arg11) = (m ((c : Thread nD τ).loc main_arg11)) :=
  (W4_of_ne m ρ c main_arg11 (by decide)).trans ((by host_keeps : W3 m ρ c (Proc.devRef .tc main_arg11) = W2 m ρ c (Proc.devRef .tc main_arg11)).trans (keep1_arg11 m ρ c))
theorem keep2_arg12 (c : Dev nD) : W4 m ρ c (Proc.devRef .tc main_arg12) = (m ((c : Thread nD τ).loc main_arg12)) :=
  (W4_of_ne m ρ c main_arg12 (by decide)).trans ((by host_keeps : W3 m ρ c (Proc.devRef .tc main_arg12) = W2 m ρ c (Proc.devRef .tc main_arg12)).trans (keep1_arg12 m ρ c))
theorem keep2_arg13 (c : Dev nD) : W4 m ρ c (Proc.devRef .tc main_arg13) = (m ((c : Thread nD τ).loc main_arg13)) :=
  (W4_of_ne m ρ c main_arg13 (by decide)).trans ((by host_keeps : W3 m ρ c (Proc.devRef .tc main_arg13) = W2 m ρ c (Proc.devRef .tc main_arg13)).trans (keep1_arg13 m ρ c))
theorem keep2_arg14 (c : Dev nD) : W4 m ρ c (Proc.devRef .tc main_arg14) = (m ((c : Thread nD τ).loc main_arg14)) :=
  (W4_of_ne m ρ c main_arg14 (by decide)).trans ((by host_keeps : W3 m ρ c (Proc.devRef .tc main_arg14) = W2 m ρ c (Proc.devRef .tc main_arg14)).trans (keep1_arg14 m ρ c))

/-! ### At the exit of region 2 -/

theorem keep3_arg1 (c : Dev nD) : W6 m ρ c (Proc.devRef .tc main_arg1) = (m ((c : Thread nD τ).loc main_arg1)) :=
  (W6_of_ne m ρ c main_arg1 (by decide)).trans ((by host_keeps : W5 m ρ c (Proc.devRef .tc main_arg1) = W4 m ρ c (Proc.devRef .tc main_arg1)).trans (keep2_arg1 m ρ c))
theorem keep3_arg2 (c : Dev nD) : W6 m ρ c (Proc.devRef .tc main_arg2) = (m ((c : Thread nD τ).loc main_arg2)) :=
  (W6_of_ne m ρ c main_arg2 (by decide)).trans ((by host_keeps : W5 m ρ c (Proc.devRef .tc main_arg2) = W4 m ρ c (Proc.devRef .tc main_arg2)).trans (keep2_arg2 m ρ c))
theorem keep3_arg12 (c : Dev nD) : W6 m ρ c (Proc.devRef .tc main_arg12) = (m ((c : Thread nD τ).loc main_arg12)) :=
  (W6_of_ne m ρ c main_arg12 (by decide)).trans ((by host_keeps : W5 m ρ c (Proc.devRef .tc main_arg12) = W4 m ρ c (Proc.devRef .tc main_arg12)).trans (keep2_arg12 m ρ c))
theorem keep3_arg13 (c : Dev nD) : W6 m ρ c (Proc.devRef .tc main_arg13) = (m ((c : Thread nD τ).loc main_arg13)) :=
  (W6_of_ne m ρ c main_arg13 (by decide)).trans ((by host_keeps : W5 m ρ c (Proc.devRef .tc main_arg13) = W4 m ρ c (Proc.devRef .tc main_arg13)).trans (keep2_arg13 m ρ c))
theorem keep3_arg14 (c : Dev nD) : W6 m ρ c (Proc.devRef .tc main_arg14) = (m ((c : Thread nD τ).loc main_arg14)) :=
  (W6_of_ne m ρ c main_arg14 (by decide)).trans ((by host_keeps : W5 m ρ c (Proc.devRef .tc main_arg14) = W4 m ρ c (Proc.devRef .tc main_arg14)).trans (keep2_arg14 m ρ c))

/-! ## Region 1, after stretch 1: `h` is region 0's output array -/

theorem entry1_lhs (c : Dev nD) : W3 m ρ c (Proc.devRef .tc main_v40)
    = lhs256 (W2 m ρ c (Proc.devRef .tc main_v26)) (agg256 (W2 m ρ c (Proc.devRef .tc main_v26)) (m ((c : Thread nD τ).loc main_arg1)) (m ((c : Thread nD τ).loc main_arg2)) (invdeg (m ((c : Thread nD τ).loc main_arg2)))) := by
  rw [← invdeg_at2 m ρ c, ← keep1_arg1 m ρ c, ← keep1_arg2 m ρ c]
  show StableHlo.after hostOps1 (W2 m ρ c) (Proc.devRef .tc main_v40) = _
  dsimp only [hostOps1]
  after_results_simp
  show lhs256 _ _ = lhs256 _ _
  refine congr (congrArg lhs256 ?_) ?_
  · after_results_simp
  · unfold agg256 srcIdx
    after_results_simp <;> rfl
theorem entry1_wts (c : Dev nD) : W3 m ρ c (Proc.devRef .tc main_v42) = wts256x128 (m ((c : Thread nD τ).loc main_arg6)) (m ((c : Thread nD τ).loc main_arg7)) := by
  rw [← keep1_arg6 m ρ c, ← keep1_arg7 m ρ c]
  show StableHlo.after hostOps1 (W2 m ρ c) (Proc.devRef .tc main_v42) = _
  unfold wts256x128
  dsimp only [hostOps1]
  after_results_simp <;> rfl
theorem entry1_bias (c : Dev nD) : W3 m ρ c (Proc.devRef .tc main_v43) = bias128 (m ((c : Thread nD τ).loc main_arg8)) := by
  rw [← keep1_arg8 m ρ c]
  show StableHlo.after hostOps1 (W2 m ρ c) (Proc.devRef .tc main_v43) = _
  unfold bias128
  dsimp only [hostOps1]
  after_results_simp <;> rfl

/-! ## Region 2, after stretch 2: `h` is region 1's output array -/

theorem entry2_lhs (c : Dev nD) : W5 m ρ c (Proc.devRef .tc main_v58)
    = lhs128 (W4 m ρ c (Proc.devRef .tc main_v44)) (agg128 (W4 m ρ c (Proc.devRef .tc main_v44)) (m ((c : Thread nD τ).loc main_arg1)) (m ((c : Thread nD τ).loc main_arg2)) (invdeg (m ((c : Thread nD τ).loc main_arg2)))) := by
  rw [← invdeg_at4 m ρ c, ← keep2_arg1 m ρ c, ← keep2_arg2 m ρ c]
  show StableHlo.after hostOps2 (W4 m ρ c) (Proc.devRef .tc main_v58) = _
  dsimp only [hostOps2]
  after_results_simp
  show lhs128 _ _ = lhs128 _ _
  refine congr (congrArg lhs128 ?_) ?_
  · after_results_simp
  · unfold agg128 srcIdx
    after_results_simp <;> rfl
theorem entry2_wts (c : Dev nD) : W5 m ρ c (Proc.devRef .tc main_v60) = wts128x256 (m ((c : Thread nD τ).loc main_arg9)) (m ((c : Thread nD τ).loc main_arg10)) := by
  rw [← keep2_arg9 m ρ c, ← keep2_arg10 m ρ c]
  show StableHlo.after hostOps2 (W4 m ρ c) (Proc.devRef .tc main_v60) = _
  unfold wts128x256
  dsimp only [hostOps2]
  after_results_simp <;> rfl
theorem entry2_bias (c : Dev nD) : W5 m ρ c (Proc.devRef .tc main_v61) = bias256 (m ((c : Thread nD τ).loc main_arg11)) := by
  rw [← keep2_arg11 m ρ c]
  show StableHlo.after hostOps2 (W4 m ρ c) (Proc.devRef .tc main_v61) = _
  unfold bias256
  dsimp only [hostOps2]
  after_results_simp <;> rfl

/-! ## Region 3, after stretch 3: `h` is region 2's output array -/

theorem entry3_lhs (c : Dev nD) : W7 m ρ c (Proc.devRef .tc main_v76)
    = lhs256 (W6 m ρ c (Proc.devRef .tc main_v62)) (agg256 (W6 m ρ c (Proc.devRef .tc main_v62)) (m ((c : Thread nD τ).loc main_arg1)) (m ((c : Thread nD τ).loc main_arg2)) (invdeg (m ((c : Thread nD τ).loc main_arg2)))) := by
  rw [← invdeg_at6 m ρ c, ← keep3_arg1 m ρ c, ← keep3_arg2 m ρ c]
  show StableHlo.after hostOps3 (W6 m ρ c) (Proc.devRef .tc main_v76) = _
  dsimp only [hostOps3]
  after_results_simp
  show lhs256 _ _ = lhs256 _ _
  refine congr (congrArg lhs256 ?_) ?_
  · after_results_simp
  · unfold agg256 srcIdx
    after_results_simp <;> rfl
theorem entry3_wts (c : Dev nD) : W7 m ρ c (Proc.devRef .tc main_v78) = wts256x256 (m ((c : Thread nD τ).loc main_arg12)) (m ((c : Thread nD τ).loc main_arg13)) := by
  rw [← keep3_arg12 m ρ c, ← keep3_arg13 m ρ c]
  show StableHlo.after hostOps3 (W6 m ρ c) (Proc.devRef .tc main_v78) = _
  unfold wts256x256
  dsimp only [hostOps3]
  after_results_simp <;> rfl
theorem entry3_bias (c : Dev nD) : W7 m ρ c (Proc.devRef .tc main_v79) = bias256 (m ((c : Thread nD τ).loc main_arg14)) := by
  rw [← keep3_arg14 m ρ c]
  show StableHlo.after hostOps3 (W6 m ρ c) (Proc.devRef .tc main_v79) = _
  unfold bias256
  dsimp only [hostOps3]
  after_results_simp <;> rfl

end Cert.KernelIdeal.Gen

end
-- ==== Proof.Region0.lean ====
/-
  Region 0 of the kernel program. Its grid has ten points; point `t` takes rows `5000 t … 5000 t + 4999` of the left operand
  `A` (50000 × 256), all of the weights `W` (256 × 256) and the bias row `b` (1 × 256), and writes rows `5000 t …` of the
  output: entry `(p, q)` of what it writes is `max (∑ k, A (5000 t + p, k) · W (k, q) + b (0, q)) 0`. The ten row blocks tile the
  50000 rows, so after the region the output array is the dense layer of the three input arrays, clipped below at zero.
-/
import proofs.«155320_j69733089018244_1_alg».proof.Proof.Gen.KernelIdeal.Frame
import proofs.«155320_j69733089018244_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open scoped BigOperators

/-! ## The matrix product's operand indices: at output `(p, q)` and contraction position `k` the left operand is read at
    `(p, k)` and the right one at `(k, q)` -/

theorem lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product of a block of rows with the weights, read at `(p, q)`: the sum over the contraction position. -/
theorem matmul_at (x0 : FVec Ideal S5000x256 .bf16) (x1 : FVec Ideal S256x256 .bf16) (p : Fin 5000) (q : Fin 256) :
    matmul dot_S5000x256_S256x256_S5000x256_1_0_0_1_n_n none x0 x1 (constant S5000x256 .f32 0x00000000#32) (ix2 p q)
      = ∑ k : Fin 256, x0 (ix2 p k) * x1 (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- What the body stores, read at `(p, q)` of the block: the product, plus the bias row broadcast down the rows, clipped
    below at zero (the zero word is the real number 0). -/
theorem pay_at (x0 : FVec Ideal S5000x256 .bf16) (x1 : FVec Ideal S256x256 .bf16) (x2 : FVec Ideal S1x256 .f32) (p : Fin 5000) (q : Fin 256) :
    k0_pay1 (F := Ideal) x0 x1 x2 (ix2 p q) = max ((∑ k : Fin 256, x0 (ix2 p k) * x1 (ix2 k q)) + x2 (ix2 (0 : Fin 1) q)) 0 := by
  unfold k0_pay1
  simp only [shapeCast_self]
  show max (matmul dot_S5000x256_S256x256_S5000x256_1_0_0_1_n_n none x0 x1 (constant S5000x256 .f32 0x00000000#32) (ix2 p q)
      + broadcastTo S5000x256 x2 broadcasts_S1x256_S5000x256 (ix2 p q)) (Ideal.ofBits .f32 0x00000000#32) = _
  rw [matmul_at, Ideal.ofBits_zero_f32, broadcastTo_apply x2 broadcasts_S1x256_S5000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])]

/-! ## The blocks: which entries of the arrays a grid point reads and writes -/

theorem hz : (![0, 0] : Fin 2 → Nat) = fun _ => 0 := funext fun a => by fin_cases a <;> rfl

/-- The printed index maps over the grid: the two row-block windows sit at block `(t, 0)`, the weights and the bias at
    `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left operand's array as the region finds it. -/
abbrev arrA (c : Dev nD) : FVec Ideal S50000x256 .bf16 := V c main_v22
/-- The weights' array as the region finds it. -/
abbrev arrW (c : Dev nD) : FVec Ideal S256x256 .bf16 := V c main_v24
/-- The bias row's array as the region finds it. -/
abbrev arrB (c : Dev nD) : FVec Ideal S1x256 .f32 := V c main_v25

/-- Entry `(p, k)` of point `t`'s block of the left operand is entry `(5000 t + p, k)` of its array. -/
theorem lhs_block (c : Dev nD) (t : Fin cfg0.N) (p : Fin 5000) (k : Fin 256) (r : Fin 50000) (hr : r.val = t.val * 5000 + p.val) :
    iblk0 V c 0 t (ix2 p k) = arrA V c (ix2 r k) := by
  show V c main_v22 (((cfg0.win 0).blk t).view.emb (ix2 p k)) = V c main_v22 (ix2 r k)
  obtain ⟨e0, e1, -⟩ := idx_facts t
  refine congrArg (V c main_v22) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The weights' block is the whole array at every point. -/
theorem rhs_block (c : Dev nD) (t : Fin cfg0.N) (k : Fin 256) (q : Fin 256) :
    iblk0 V c 1 t (ix2 k q) = arrW V c (ix2 k q) := by
  show V c main_v24 (((cfg0.win 1).blk t).view.emb (ix2 k q)) = V c main_v24 (ix2 k q)
  obtain ⟨-, -, e2, e3, -⟩ := idx_facts t
  refine congrArg (V c main_v24) (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- So is the bias row's. -/
theorem bias_block (c : Dev nD) (t : Fin cfg0.N) (q : Fin 256) :
    iblk0 V c 2 t (ix2 (0 : Fin 1) q) = arrB V c (ix2 (0 : Fin 1) q) := by
  show V c main_v25 (((cfg0.win 2).blk t).view.emb (ix2 (0 : Fin 1) q)) = V c main_v25 (ix2 (0 : Fin 1) q)
  obtain ⟨-, -, -, -, e4, e5, -⟩ := idx_facts t
  refine congrArg (V c main_v25) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- What point `t` writes back is block `t` of the clipped dense layer of the three arrays as the region finds them. -/
theorem flushed (c : Dev nD) (t : Fin cfg0.N) :
    (dat0 (F := Ideal) V c).flushed 3 t
      = ((cfg0.win 3).blk t).view.read (Elt Ideal) (Sage.denseRelu 50000 256 256 (arrA V c) (arrW V c) (arrB V c)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S1x256) hz]
  funext j
  obtain ⟨p, q, rfl⟩ : ∃ (p : Fin 5000) (q : Fin 256), j = ix2 p q := ⟨j 0, j 1, eq_ix2 j⟩
  have ht : t.val < 10 := N_0 ▸ t.isLt
  have hr : t.val * 5000 + p.val < 50000 := by have := p.isLt; omega
  show k0_pay1 (F := Ideal) (iblk0 V c 0 t) (iblk0 V c 1 t) (iblk0 V c 2 t) (ix2 p q)
    = Sage.denseRelu 50000 256 256 (arrA V c) (arrW V c) (arrB V c) (((cfg0.win 3).blk t).view.emb (ix2 p q))
  have hemb : ((cfg0.win 3).blk t).view.emb (ix2 p q) = ix2 (⟨t.val * 5000 + p.val, hr⟩ : Fin 50000) q := by
    obtain ⟨-, -, -, -, -, -, e6, e7⟩ := idx_facts t
    funext a; apply Fin.ext
    match a with
    | ⟨0, _⟩ => show win0_3.index t (0 : Fin 2) * 5000 + 1 * p.val = t.val * 5000 + p.val; omega
    | ⟨1, _⟩ => show win0_3.index t (1 : Fin 2) * 256 + 1 * q.val = q.val; omega
  rw [hemb]
  refine (pay_at (iblk0 V c 0 t) (iblk0 V c 1 t) (iblk0 V c 2 t) p q).trans ?_
  show _ = max ((∑ k : Fin 256, arrA V c (ix2 (⟨t.val * 5000 + p.val, hr⟩ : Fin 50000) k) * arrW V c (ix2 k q)) + arrB V c (ix2 (0 : Fin 1) q)) 0
  refine congrArg (fun z => max z (0 : EReal)) ?_
  refine congr (congrArg HAdd.hAdd (Finset.sum_congr rfl fun k _ => ?_)) (bias_block V c t q)
  rw [lhs_block V c t p k ⟨t.val * 5000 + p.val, hr⟩ rfl, rhs_block V c t k q]

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v26).slice (win0_3.rect t)).set ↔ _
  rw [View.set_slice_whole, Rect.mem_set_unit]
  exact Iff.rfl

/-- Row `r` of the output is written by the point `r / 5000`: the ten blocks tile the array. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 5000 < cfg0.N := by show _ < grid0.N; rw [N_0]; omega
  refine ⟨⟨(i 0).val / 5000, hN⟩, flush0_3 _, ?_⟩
  rw [mem_blk]
  obtain ⟨-, -, -, -, -, -, e6, e7⟩ := idx_facts ⟨(i 0).val / 5000, hN⟩
  have e6' : win0_3.index ⟨(i 0).val / 5000, hN⟩ (0 : Fin 2) = (i 0).val / 5000 := e6
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 256 ≤ (i 1).val ∧ (i 1).val < win0_3.index ⟨(i 0).val / 5000, hN⟩ (1 : Fin 2) * 256 + 256; omega

/-- The output array after the region: the clipped dense layer of the three input arrays as the region finds them. -/
theorem arr (c : Dev nD) :
    (dat0 (F := Ideal) V c).arrAt 3 cfg0.N = Sage.denseRelu 50000 256 256 (arrA V c) (arrW V c) (arrB V c) :=
  (dat0 (F := Ideal) V c).arrAt_eq_of_cover 3 _ (fun t _ => flushed V c t) cover

end Cert.KernelIdeal.Region0

end
-- ==== Proof.Region1.lean ====
/-
  Region 1 of the kernel program. Its grid has ten points; point `t` takes rows `5000 t … 5000 t + 4999` of the left operand
  `A` (50000 × 512), all of the weights `W` (512 × 128) and the bias row `b` (1 × 128), and writes rows `5000 t …` of the
  output: entry `(p, q)` of what it writes is `max (∑ k, A (5000 t + p, k) · W (k, q) + b (0, q)) 0`. The ten row blocks tile the
  50000 rows, so after the region the output array is the dense layer of the three input arrays, clipped below at zero.
-/
import proofs.«155320_j69733089018244_1_alg».proof.Proof.Gen.KernelIdeal.Frame
import proofs.«155320_j69733089018244_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open scoped BigOperators

/-! ## The matrix product's operand indices: at output `(p, q)` and contraction position `k` the left operand is read at
    `(p, k)` and the right one at `(k, q)` -/

theorem lhs_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The product of a block of rows with the weights, read at `(p, q)`: the sum over the contraction position. -/
theorem matmul_at (x0 : FVec Ideal S5000x512 .bf16) (x1 : FVec Ideal S512x128 .bf16) (p : Fin 5000) (q : Fin 128) :
    matmul dot_S5000x512_S512x128_S5000x128_1_0_0_1_n_n none x0 x1 (constant S5000x128 .f32 0x00000000#32) (ix2 p q)
      = ∑ k : Fin 512, x0 (ix2 p k) * x1 (ix2 k q) := by
  simp only [matmul]
  rw [Ideal.matmul_constant_zero_apply, ← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
    match a with
    | ⟨0, _⟩ => exact lhs_0 _ _
    | ⟨1, _⟩ => exact (lhs_1 _ _).trans hk)
  have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- What the body stores, read at `(p, q)` of the block: the product, plus the bias row broadcast down the rows, clipped
    below at zero (the zero word is the real number 0). -/
theorem pay_at (x0 : FVec Ideal S5000x512 .bf16) (x1 : FVec Ideal S512x128 .bf16) (x2 : FVec Ideal S1x128 .f32) (p : Fin 5000) (q : Fin 128) :
    k1_pay1 (F := Ideal) x0 x1 x2 (ix2 p q) = max ((∑ k : Fin 512, x0 (ix2 p k) * x1 (ix2 k q)) + x2 (ix2 (0 : Fin 1) q)) 0 := by
  unfold k1_pay1
  simp only [shapeCast_self]
  show max (matmul dot_S5000x512_S512x128_S5000x128_1_0_0_1_n_n none x0 x1 (constant S5000x128 .f32 0x00000000#32) (ix2 p q)
      + broadcastTo S5000x128 x2 broadcasts_S1x128_S5000x128 (ix2 p q)) (Ideal.ofBits .f32 0x00000000#32) = _
  rw [matmul_at, Ideal.ofBits_zero_f32, broadcastTo_apply x2 broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])]

/-! ## The blocks: which entries of the arrays a grid point reads and writes -/

theorem hz : (![0, 0] : Fin 2 → Nat) = fun _ => 0 := funext fun a => by fin_cases a <;> rfl

/-- The printed index maps over the grid: the two row-block windows sit at block `(t, 0)`, the weights and the bias at
    `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The left operand's array as the region finds it. -/
abbrev arrA (c : Dev nD) : FVec Ideal S50000x512 .bf16 := V c main_v40
/-- The weights' array as the region finds it. -/
abbrev arrW (c : Dev nD) : FVec Ideal S512x128 .bf16 := V c main_v42
/-- The bias row's array as the region finds it. -/
abbrev arrB (c : Dev nD) : FVec Ideal S1x128 .f32 := V c main_v43

/-- Entry `(p, k)` of point `t`'s block of the left operand is entry `(5000 t + p, k)` of its array. -/
theorem lhs_block (c : Dev nD) (t : Fin cfg1.N) (p : Fin 5000) (k : Fin 512) (r : Fin 50000) (hr : r.val = t.val * 5000 + p.val) :
    iblk1 V c 0 t (ix2 p k) = arrA V c (ix2 r k) := by
  show V c main_v40 (((cfg1.win 0).blk t).view.emb (ix2 p k)) = V c main_v40 (ix2 r k)
  obtain ⟨e0, e1, -⟩ := idx_facts t
  refine congrArg (V c main_v40) (funext fun a => Fin.ext ?_)
  match a with
  | ⟨0, _⟩ => show win1_0.index t (0 : Fin 2) * 5000 + 1 * p.val = r.val; omega
  | ⟨1, _⟩ => show win1_0.index t (1 : Fin 2) * 512 + 1 * k.val = k.val; omega

/-- The weights' block is the whole array at every point. -/
theorem rhs_block (c : Dev nD) (t : Fin cfg1.N) (k : Fin 512) (q : Fin 128) :
    iblk1 V c 1 t (ix2 k q) = arrW V c (ix2 k q) := by
  show V c main_v42 (((cfg1.win 1).blk t).view.emb (ix2 k q)) = V c main_v42 (ix2 k q)
  obtain ⟨-, -, e2, e3, -⟩ := idx_facts t
  refine congrArg (V c main_v42) (funext fun a => Fin.ext ?_)
  match a with
  | ⟨0, _⟩ => show win1_1.index t (0 : Fin 2) * 512 + 1 * k.val = k.val; omega
  | ⟨1, _⟩ => show win1_1.index t (1 : Fin 2) * 128 + 1 * q.val = q.val; omega

/-- So is the bias row's. -/
theorem bias_block (c : Dev nD) (t : Fin cfg1.N) (q : Fin 128) :
    iblk1 V c 2 t (ix2 (0 : Fin 1) q) = arrB V c (ix2 (0 : Fin 1) q) := by
  show V c main_v43 (((cfg1.win 2).blk t).view.emb (ix2 (0 : Fin 1) q)) = V c main_v43 (ix2 (0 : Fin 1) q)
  obtain ⟨-, -, -, -, e4, e5, -⟩ := idx_facts t
  refine congrArg (V c main_v43) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- What point `t` writes back is block `t` of the clipped dense layer of the three arrays as the region finds them. -/
theorem flushed (c : Dev nD) (t : Fin cfg1.N) :
    (dat1 (F := Ideal) V c).flushed 3 t
      = ((cfg1.win 3).blk t).view.read (Elt Ideal) (Sage.denseRelu 50000 512 128 (arrA V c) (arrW V c) (arrB V c)) := by
  show (cfg1.win 3).cut (grid1.coords t) ((dat1 V c).after 3 t) = _
  rw [after1_3]
  unfold out1_3
  rw [View.canon_unit_zero hz]
  simp only [View.ld_unit_zero (S := S5000x512) hz, View.ld_unit_zero (S := S512x128) hz, View.ld_unit_zero (S := S1x128) hz]
  funext j
  obtain ⟨p, q, rfl⟩ : ∃ (p : Fin 5000) (q : Fin 128), j = ix2 p q := ⟨j 0, j 1, eq_ix2 j⟩
  have ht : t.val < 10 := N_1 ▸ t.isLt
  have hr : t.val * 5000 + p.val < 50000 := by have := p.isLt; omega
  show k1_pay1 (F := Ideal) (iblk1 V c 0 t) (iblk1 V c 1 t) (iblk1 V c 2 t) (ix2 p q)
    = Sage.denseRelu 50000 512 128 (arrA V c) (arrW V c) (arrB V c) (((cfg1.win 3).blk t).view.emb (ix2 p q))
  have hemb : ((cfg1.win 3).blk t).view.emb (ix2 p q) = ix2 (⟨t.val * 5000 + p.val, hr⟩ : Fin 50000) q := by
    obtain ⟨-, -, -, -, -, -, e6, e7⟩ := idx_facts t
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb]
  refine (pay_at (iblk1 V c 0 t) (iblk1 V c 1 t) (iblk1 V c 2 t) p q).trans ?_
  show _ = max ((∑ k : Fin 512, arrA V c (ix2 (⟨t.val * 5000 + p.val, hr⟩ : Fin 50000) k) * arrW V c (ix2 k q)) + arrB V c (ix2 (0 : Fin 1) q)) 0
  refine congrArg (fun z => max z (0 : EReal)) ?_
  refine congr (congrArg HAdd.hAdd (Finset.sum_congr rfl fun k _ => ?_)) (bias_block V c t q)
  rw [lhs_block V c t p k ⟨t.val * 5000 + p.val, hr⟩ rfl, rhs_block V c t k q]

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Row `r` of the output is written by the point `r / 5000`: the ten blocks tile the array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_3 _, ?_⟩
  rw [mem_blk]
  obtain ⟨-, -, -, -, -, -, e6, e7⟩ := idx_facts ⟨(i 0).val / 5000, hN⟩
  have e6' : win1_3.index ⟨(i 0).val / 5000, hN⟩ (0 : Fin 2) = (i 0).val / 5000 := e6
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega

/-- The output array after the region: the clipped dense layer of the three input arrays as the region finds them. -/
theorem arr (c : Dev nD) :
    (dat1 (F := Ideal) V c).arrAt 3 cfg1.N = Sage.denseRelu 50000 512 128 (arrA V c) (arrW V c) (arrB V c) :=
  (dat1 (F := Ideal) V c).arrAt_eq_of_cover 3 _ (fun t _ => flushed V c t) cover

end Cert.KernelIdeal.Region1

end
-- ==== Proof.Region2.lean ====
/-
  Region 2 of the kernel program. Its grid has ten points; point `t` takes rows `5000 t … 5000 t + 4999` of the left operand
  `A` (50000 × 256), all of the weights `W` (256 × 256) and the bias row `b` (1 × 256), and writes rows `5000 t …` of the
  output: entry `(p, q)` of what it writes is `max (∑ k, A (5000 t + p, k) · W (k, q) + b (0, q)) 0`. The ten row blocks tile the
  50000 rows, so after the region the output array is the dense layer of the three input arrays, clipped below at zero.
-/
import proofs.«155320_j69733089018244_1_alg».proof.Proof.Gen.KernelIdeal.Frame
import proofs.«155320_j69733089018244_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open scoped BigOperators

/-! ## The matrix product's operand indices: at output `(p, q)` and contraction position `k` the left operand is read at
    `(p, k)` and the right one at `(k, q)` -/

theorem lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product of a block of rows with the weights, read at `(p, q)`: the sum over the contraction position. -/
theorem matmul_at (x0 : FVec Ideal S5000x256 .bf16) (x1 : FVec Ideal S256x256 .bf16) (p : Fin 5000) (q : Fin 256) :
    matmul dot_S5000x256_S256x256_S5000x256_1_0_0_1_n_n none x0 x1 (constant S5000x256 .f32 0x00000000#32) (ix2 p q)
      = ∑ k : Fin 256, x0 (ix2 p k) * x1 (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- What the body stores, read at `(p, q)` of the block: the product, plus the bias row broadcast down the rows, clipped
    below at zero (the zero word is the real number 0). -/
theorem pay_at (x0 : FVec Ideal S5000x256 .bf16) (x1 : FVec Ideal S256x256 .bf16) (x2 : FVec Ideal S1x256 .f32) (p : Fin 5000) (q : Fin 256) :
    k2_pay1 (F := Ideal) x0 x1 x2 (ix2 p q) = max ((∑ k : Fin 256, x0 (ix2 p k) * x1 (ix2 k q)) + x2 (ix2 (0 : Fin 1) q)) 0 := by
  unfold k2_pay1
  simp only [shapeCast_self]
  show max (matmul dot_S5000x256_S256x256_S5000x256_1_0_0_1_n_n none x0 x1 (constant S5000x256 .f32 0x00000000#32) (ix2 p q)
      + broadcastTo S5000x256 x2 broadcasts_S1x256_S5000x256 (ix2 p q)) (Ideal.ofBits .f32 0x00000000#32) = _
  rw [matmul_at, Ideal.ofBits_zero_f32, broadcastTo_apply x2 broadcasts_S1x256_S5000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])]

/-! ## The blocks: which entries of the arrays a grid point reads and writes -/

theorem hz : (![0, 0] : Fin 2 → Nat) = fun _ => 0 := funext fun a => by fin_cases a <;> rfl

/-- The printed index maps over the grid: the two row-block windows sit at block `(t, 0)`, the weights and the bias at
    `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The left operand's array as the region finds it. -/
abbrev arrA (c : Dev nD) : FVec Ideal S50000x256 .bf16 := V c main_v58
/-- The weights' array as the region finds it. -/
abbrev arrW (c : Dev nD) : FVec Ideal S256x256 .bf16 := V c main_v60
/-- The bias row's array as the region finds it. -/
abbrev arrB (c : Dev nD) : FVec Ideal S1x256 .f32 := V c main_v61

/-- Entry `(p, k)` of point `t`'s block of the left operand is entry `(5000 t + p, k)` of its array. -/
theorem lhs_block (c : Dev nD) (t : Fin cfg2.N) (p : Fin 5000) (k : Fin 256) (r : Fin 50000) (hr : r.val = t.val * 5000 + p.val) :
    iblk2 V c 0 t (ix2 p k) = arrA V c (ix2 r k) := by
  show V c main_v58 (((cfg2.win 0).blk t).view.emb (ix2 p k)) = V c main_v58 (ix2 r k)
  obtain ⟨e0, e1, -⟩ := idx_facts t
  refine congrArg (V c main_v58) (funext fun a => Fin.ext ?_)
  match a with
  | ⟨0, _⟩ => show win2_0.index t (0 : Fin 2) * 5000 + 1 * p.val = r.val; omega
  | ⟨1, _⟩ => show win2_0.index t (1 : Fin 2) * 256 + 1 * k.val = k.val; omega

/-- The weights' block is the whole array at every point. -/
theorem rhs_block (c : Dev nD) (t : Fin cfg2.N) (k : Fin 256) (q : Fin 256) :
    iblk2 V c 1 t (ix2 k q) = arrW V c (ix2 k q) := by
  show V c main_v60 (((cfg2.win 1).blk t).view.emb (ix2 k q)) = V c main_v60 (ix2 k q)
  obtain ⟨-, -, e2, e3, -⟩ := idx_facts t
  refine congrArg (V c main_v60) (funext fun a => Fin.ext ?_)
  match a with
  | ⟨0, _⟩ => show win2_1.index t (0 : Fin 2) * 256 + 1 * k.val = k.val; omega
  | ⟨1, _⟩ => show win2_1.index t (1 : Fin 2) * 256 + 1 * q.val = q.val; omega

/-- So is the bias row's. -/
theorem bias_block (c : Dev nD) (t : Fin cfg2.N) (q : Fin 256) :
    iblk2 V c 2 t (ix2 (0 : Fin 1) q) = arrB V c (ix2 (0 : Fin 1) q) := by
  show V c main_v61 (((cfg2.win 2).blk t).view.emb (ix2 (0 : Fin 1) q)) = V c main_v61 (ix2 (0 : Fin 1) q)
  obtain ⟨-, -, -, -, e4, e5, -⟩ := idx_facts t
  refine congrArg (V c main_v61) (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega

/-- What point `t` writes back is block `t` of the clipped dense layer of the three arrays as the region finds them. -/
theorem flushed (c : Dev nD) (t : Fin cfg2.N) :
    (dat2 (F := Ideal) V c).flushed 3 t
      = ((cfg2.win 3).blk t).view.read (Elt Ideal) (Sage.denseRelu 50000 256 256 (arrA V c) (arrW V c) (arrB V c)) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x256) hz, View.ld_unit_zero (S := S1x256) hz]
  funext j
  obtain ⟨p, q, rfl⟩ : ∃ (p : Fin 5000) (q : Fin 256), j = ix2 p q := ⟨j 0, j 1, eq_ix2 j⟩
  have ht : t.val < 10 := N_2 ▸ t.isLt
  have hr : t.val * 5000 + p.val < 50000 := by have := p.isLt; omega
  show k2_pay1 (F := Ideal) (iblk2 V c 0 t) (iblk2 V c 1 t) (iblk2 V c 2 t) (ix2 p q)
    = Sage.denseRelu 50000 256 256 (arrA V c) (arrW V c) (arrB V c) (((cfg2.win 3).blk t).view.emb (ix2 p q))
  have hemb : ((cfg2.win 3).blk t).view.emb (ix2 p q) = ix2 (⟨t.val * 5000 + p.val, hr⟩ : Fin 50000) q := by
    obtain ⟨-, -, -, -, -, -, e6, e7⟩ := idx_facts t
    funext a; apply Fin.ext
    match a with
    | ⟨0, _⟩ => show win2_3.index t (0 : Fin 2) * 5000 + 1 * p.val = t.val * 5000 + p.val; omega
    | ⟨1, _⟩ => show win2_3.index t (1 : Fin 2) * 256 + 1 * q.val = q.val; omega
  rw [hemb]
  refine (pay_at (iblk2 V c 0 t) (iblk2 V c 1 t) (iblk2 V c 2 t) p q).trans ?_
  show _ = max ((∑ k : Fin 256, arrA V c (ix2 (⟨t.val * 5000 + p.val, hr⟩ : Fin 50000) k) * arrW V c (ix2 k q)) + arrB V c (ix2 (0 : Fin 1) q)) 0
  refine congrArg (fun z => max z (0 : EReal)) ?_
  refine congr (congrArg HAdd.hAdd (Finset.sum_congr rfl fun k _ => ?_)) (bias_block V c t q)
  rw [lhs_block V c t p k ⟨t.val * 5000 + p.val, hr⟩ rfl, rhs_block V c t k q]

/-- An index of the output array is in point `t`'s block iff each coordinate is in the block's range on its axis. -/
theorem mem_blk (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v62).slice (win2_3.rect t)).set ↔ _
  rw [View.set_slice_whole, Rect.mem_set_unit]
  exact Iff.rfl

/-- Row `r` of the output is written by the point `r / 5000`: the ten blocks tile the array. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : (i 0).val / 5000 < cfg2.N := by show _ < grid2.N; rw [N_2]; omega
  refine ⟨⟨(i 0).val / 5000, hN⟩, flush2_3 _, ?_⟩
  rw [mem_blk]
  obtain ⟨-, -, -, -, -, -, e6, e7⟩ := idx_facts ⟨(i 0).val / 5000, hN⟩
  have e6' : win2_3.index ⟨(i 0).val / 5000, hN⟩ (0 : Fin 2) = (i 0).val / 5000 := e6
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; omega
  | ⟨1, _⟩ => show win2_3.index ⟨(i 0).val / 5000, hN⟩ (1 : Fin 2) * 256 ≤ (i 1).val ∧ (i 1).val < win2_3.index ⟨(i 0).val / 5000, hN⟩ (1 : Fin 2) * 256 + 256; omega

/-- The output array after the region: the clipped dense layer of the three input arrays as the region finds them. -/
theorem arr (c : Dev nD) :
    (dat2 (F := Ideal) V c).arrAt 3 cfg2.N = Sage.denseRelu 50000 256 256 (arrA V c) (arrW V c) (arrB V c) :=
  (dat2 (F := Ideal) V c).arrAt_eq_of_cover 3 _ (fun t _ => flushed V c t) cover

end Cert.KernelIdeal.Region2

end
-- ==== Proof.Region3.lean ====
/-
  Region 3 of the kernel program, the last layer: the same grid of ten row blocks as the earlier regions, but the body stores
  `A_block · W + b` as it is, with no clip. Point `t` takes rows `5000 t … 5000 t + 4999` of `A` (50000 × 512), all of `W`
  (512 × 256) and the bias row (1 × 256); the ten blocks tile the 50000 rows, so the output array is the dense layer of the
  three input arrays.
-/
import proofs.«155320_j69733089018244_1_alg».proof.Proof.Gen.KernelIdeal.Frame
import proofs.«155320_j69733089018244_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open scoped BigOperators

/-! ## The matrix product's operand indices: at output `(p, q)` and contraction position `k` the left operand is read at
    `(p, k)` and the right one at `(k, q)` -/

theorem lhs_0 (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem lhs_1 (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
theorem rhs_0 (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
theorem rhs_1 (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- The product of a block of rows with the weights, read at `(p, q)`: the sum over the contraction position. -/
theorem matmul_at (x0 : FVec Ideal S5000x512 .bf16) (x1 : FVec Ideal S512x256 .bf16) (p : Fin 5000) (q : Fin 256) :
    matmul dot_S5000x512_S512x256_S5000x256_1_0_0_1_n_n none x0 x1 (constant S5000x256 .f32 0x00000000#32) (ix2 p q)
      = ∑ k : Fin 512, x0 (ix2 p k) * x1 (ix2 k q) := by
  simp only [matmul]
  rw [Ideal.matmul_constant_zero_apply, ← Equiv.sum_comp (contrEquiv1 dot_S5000x512_S512x256_S5000x256_1_0_0_1_n_n 512 rfl rfl).symm]
  refine Finset.sum_congr rfl fun k _ => ?_
  have hk := contrEquiv1_symm_val dot_S5000x512_S512x256_S5000x256_1_0_0_1_n_n 512 rfl rfl k
  have el : dot_S5000x512_S512x256_S5000x256_1_0_0_1_n_n.lhsIdx (ix2 p q) ((contrEquiv1 dot_S5000x512_S512x256_S5000x256_1_0_0_1_n_n 512 rfl rfl).symm k) = ix2 p k := funext fun a => Fin.ext (by
    match a with
    | ⟨0, _⟩ => exact lhs_0 _ _
    | ⟨1, _⟩ => exact (lhs_1 _ _).trans hk)
  have er : dot_S5000x512_S512x256_S5000x256_1_0_0_1_n_n.rhsIdx (ix2 p q) ((contrEquiv1 dot_S5000x512_S512x256_S5000x256_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- What the body stores, read at `(p, q)` of the block: the product, plus the bias row broadcast down the rows. -/
theorem pay_at (x0 : FVec Ideal S5000x512 .bf16) (x1 : FVec Ideal S512x256 .bf16) (x2 : FVec Ideal S1x256 .f32) (p : Fin 5000) (q : Fin 256) :
    k3_pay1 (F := Ideal) x0 x1 x2 (ix2 p q) = (∑ k : Fin 512, x0 (ix2 p k) * x1 (ix2 k q)) + x2 (ix2 (0 : Fin 1) q) := by
  unfold k3_pay1
  simp only [shapeCast_self]
  show matmul dot_S5000x512_S512x256_S5000x256_1_0_0_1_n_n none x0 x1 (constant S5000x256 .f32 0x00000000#32) (ix2 p q)
      + broadcastTo S5000x256 x2 broadcasts_S1x256_S5000x256 (ix2 p q) = _
  rw [matmul_at, broadcastTo_apply x2 broadcasts_S1x256_S5000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])]

/-! ## The blocks: which entries of the arrays a grid point reads and writes -/

theorem hz : (![0, 0] : Fin 2 → Nat) = fun _ => 0 := funext fun a => by fin_cases a <;> rfl

/-- The printed index maps over the grid: the two row-block windows sit at block `(t, 0)`, the weights and the bias at
    `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The left operand's array as the region finds it. -/
abbrev arrA (c : Dev nD) : FVec Ideal S50000x512 .bf16 := V c main_v76
/-- The weights' array as the region finds it. -/
abbrev arrW (c : Dev nD) : FVec Ideal S512x256 .bf16 := V c main_v78
/-- The bias row's array as the region finds it. -/
abbrev arrB (c : Dev nD) : FVec Ideal S1x256 .f32 := V c main_v79

/-- Entry `(p, k)` of point `t`'s block of the left operand is entry `(5000 t + p, k)` of its array. -/
theorem lhs_block (c : Dev nD) (t : Fin cfg3.N) (p : Fin 5000) (k : Fin 512) (r : Fin 50000) (hr : r.val = t.val * 5000 + p.val) :
    iblk3 V c 0 t (ix2 p k) = arrA V c (ix2 r k) := by
  show V c main_v76 (((cfg3.win 0).blk t).view.emb (ix2 p k)) = V c main_v76 (ix2 r k)
  obtain ⟨e0, e1, -⟩ := idx_facts t
  refine congrArg (V c main_v76) (funext fun a => Fin.ext ?_)
  match a with
  | ⟨0, _⟩ => show win3_0.index t (0 : Fin 2) * 5000 + 1 * p.val = r.val; omega
  | ⟨1, _⟩ => show win3_0.index t (1 : Fin 2) * 512 + 1 * k.val = k.val; omega

/-- The weights' block is the whole array at every point. -/
theorem rhs_block (c : Dev nD) (t : Fin cfg3.N) (k : Fin 512) (q : Fin 256) :
    iblk3 V c 1 t (ix2 k q) = arrW V c (ix2 k q) := by
  show V c main_v78 (((cfg3.win 1).blk t).view.emb (ix2 k q)) = V c main_v78 (ix2 k q)
  obtain ⟨-, -, e2, e3, -⟩ := idx_facts t
  refine congrArg (V c main_v78) (funext fun a => Fin.ext ?_)
  match a with
  | ⟨0, _⟩ => show win3_1.index t (0 : Fin 2) * 512 + 1 * k.val = k.val; omega
  | ⟨1, _⟩ => show win3_1.index t (1 : Fin 2) * 256 + 1 * q.val = q.val; omega

/-- So is the bias row's. -/
theorem bias_block (c : Dev nD) (t : Fin cfg3.N) (q : Fin 256) :
    iblk3 V c 2 t (ix2 (0 : Fin 1) q) = arrB V c (ix2 (0 : Fin 1) q) := by
  show V c main_v79 (((cfg3.win 2).blk t).view.emb (ix2 (0 : Fin 1) q)) = V c main_v79 (ix2 (0 : Fin 1) q)
  obtain ⟨-, -, -, -, e4, e5, -⟩ := idx_facts t
  refine congrArg (V c main_v79) (funext fun a => Fin.ext ?_)
  match a with
  | ⟨0, _⟩ => show win3_2.index t (0 : Fin 2) * 1 + 1 * 0 = 0; omega
  | ⟨1, _⟩ => show win3_2.index t (1 : Fin 2) * 256 + 1 * q.val = q.val; omega

/-- What point `t` writes back is block `t` of the dense layer of the three arrays as the region finds them. -/
theorem flushed (c : Dev nD) (t : Fin cfg3.N) :
    (dat3 (F := Ideal) V c).flushed 3 t
      = ((cfg3.win 3).blk t).view.read (Elt Ideal) (Sage.dense 50000 512 256 (arrA V c) (arrW V c) (arrB V c)) := by
  show (cfg3.win 3).cut (grid3.coords t) ((dat3 V c).after 3 t) = _
  rw [after3_3]
  unfold out3_3
  rw [View.canon_unit_zero hz]
  simp only [View.ld_unit_zero (S := S5000x512) hz, View.ld_unit_zero (S := S512x256) hz, View.ld_unit_zero (S := S1x256) hz]
  funext j
  obtain ⟨p, q, rfl⟩ : ∃ (p : Fin 5000) (q : Fin 256), j = ix2 p q := ⟨j 0, j 1, eq_ix2 j⟩
  have ht : t.val < 10 := N_3 ▸ t.isLt
  have hr : t.val * 5000 + p.val < 50000 := by have := p.isLt; omega
  show k3_pay1 (F := Ideal) (iblk3 V c 0 t) (iblk3 V c 1 t) (iblk3 V c 2 t) (ix2 p q)
    = Sage.dense 50000 512 256 (arrA V c) (arrW V c) (arrB V c) (((cfg3.win 3).blk t).view.emb (ix2 p q))
  have hemb : ((cfg3.win 3).blk t).view.emb (ix2 p q) = ix2 (⟨t.val * 5000 + p.val, hr⟩ : Fin 50000) q := by
    obtain ⟨-, -, -, -, -, -, e6, e7⟩ := idx_facts t
    funext a; apply Fin.ext
    match a with
    | ⟨0, _⟩ => show win3_3.index t (0 : Fin 2) * 5000 + 1 * p.val = t.val * 5000 + p.val; omega
    | ⟨1, _⟩ => show win3_3.index t (1 : Fin 2) * 256 + 1 * q.val = q.val; omega
  rw [hemb]
  refine (pay_at (iblk3 V c 0 t) (iblk3 V c 1 t) (iblk3 V c 2 t) p q).trans ?_
  show _ = (∑ k : Fin 512, arrA V c (ix2 (⟨t.val * 5000 + p.val, hr⟩ : Fin 50000) k) * arrW V c (ix2 k q)) + arrB V c (ix2 (0 : Fin 1) q)
  refine congr (congrArg HAdd.hAdd (Finset.sum_congr rfl fun k _ => ?_)) (bias_block V c t q)
  rw [lhs_block V c t p k ⟨t.val * 5000 + p.val, hr⟩ rfl, rhs_block V c t k q]

/-- An index of the output array is in point `t`'s block iff each coordinate is in the block's range on its axis. -/
theorem mem_blk (t : Fin cfg3.N) (i : S50000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v80).slice (win3_3.rect t)).set ↔ _
  rw [View.set_slice_whole, Rect.mem_set_unit]
  exact Iff.rfl

/-- Row `r` of the output is written by the point `r / 5000`: the ten blocks tile the array. -/
theorem cover (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  have hN : (i 0).val / 5000 < cfg3.N := by show _ < grid3.N; rw [N_3]; omega
  refine ⟨⟨(i 0).val / 5000, hN⟩, flush3_3 _, ?_⟩
  rw [mem_blk]
  obtain ⟨-, -, -, -, -, -, e6, e7⟩ := idx_facts ⟨(i 0).val / 5000, hN⟩
  have e6' : win3_3.index ⟨(i 0).val / 5000, hN⟩ (0 : Fin 2) = (i 0).val / 5000 := e6
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; omega
  | ⟨1, _⟩ => show win3_3.index ⟨(i 0).val / 5000, hN⟩ (1 : Fin 2) * 256 ≤ (i 1).val ∧ (i 1).val < win3_3.index ⟨(i 0).val / 5000, hN⟩ (1 : Fin 2) * 256 + 256; omega

/-- The output array after the region: the dense layer of the three input arrays as the region finds them. -/
theorem arr (c : Dev nD) :
    (dat3 (F := Ideal) V c).arrAt 3 cfg3.N = Sage.dense 50000 512 256 (arrA V c) (arrW V c) (arrB V c) :=
  (dat3 (F := Ideal) V c).arrAt_eq_of_cover 3 _ (fun t _ => flushed V c t) cover

end Cert.KernelIdeal.Region3

end
-- ==== Proof.KValue.lean ====
/-
  The kernel program's result as a composition of four dense layers of its fifteen argument arrays, and the run read
  against it: region `k` leaves in its output array the `k`-th layer's value, because its three input arrays hold, when it is
  entered, `[h | mean of h's in-neighbours]`, `[ws ; wn]` and the bias row, with `h` the previous region's output array.
-/
import proofs.«155320_j69733089018244_1_alg».proof.Proof.Dense
import proofs.«155320_j69733089018244_1_alg».proof.Proof.KHostDefs
import proofs.«155320_j69733089018244_1_alg».proof.Proof.KHost
import proofs.«155320_j69733089018244_1_alg».proof.Proof.Region0
import proofs.«155320_j69733089018244_1_alg».proof.Proof.Region1
import proofs.«155320_j69733089018244_1_alg».proof.Proof.Region2
import proofs.«155320_j69733089018244_1_alg».proof.Proof.Region3

set_option maxRecDepth 16384

noncomputable section

namespace Cert.KernelIdeal.Net

open Cert.KernelIdeal Cert.KernelIdeal.Host Idealize.ShloMosaic

/-- The first layer's output, 256 columns. -/
def k1 (x0 : FVec Ideal S50000x128 .f32) (x1 : IVec S800000 32) (x2 : IVec S800000 32) (x3 : FVec Ideal S128x256 .f32) (x4 : FVec Ideal S128x256 .f32) (x5 : FVec Ideal S256 .f32) : FVec Ideal S50000x256 .f32 :=
  Sage.denseRelu 50000 256 256 (lhs128 x0 (agg128 x0 x1 x2 (invdeg x2))) (wts128x256 x3 x4) (bias256 x5)
/-- The second layer's output, 128 columns. -/
def k2 (x0 : FVec Ideal S50000x128 .f32) (x1 : IVec S800000 32) (x2 : IVec S800000 32) (x3 : FVec Ideal S128x256 .f32) (x4 : FVec Ideal S128x256 .f32) (x5 : FVec Ideal S256 .f32) (x6 : FVec Ideal S256x128 .f32) (x7 : FVec Ideal S256x128 .f32) (x8 : FVec Ideal S128 .f32) : FVec Ideal S50000x128 .f32 :=
  Sage.denseRelu 50000 512 128 (lhs256 (k1 x0 x1 x2 x3 x4 x5) (agg256 (k1 x0 x1 x2 x3 x4 x5) x1 x2 (invdeg x2))) (wts256x128 x6 x7) (bias128 x8)
/-- The third layer's output, 256 columns. -/
def k3 (x0 : FVec Ideal S50000x128 .f32) (x1 : IVec S800000 32) (x2 : IVec S800000 32) (x3 : FVec Ideal S128x256 .f32) (x4 : FVec Ideal S128x256 .f32) (x5 : FVec Ideal S256 .f32) (x6 : FVec Ideal S256x128 .f32) (x7 : FVec Ideal S256x128 .f32) (x8 : FVec Ideal S128 .f32) (x9 : FVec Ideal S128x256 .f32) (x10 : FVec Ideal S128x256 .f32) (x11 : FVec Ideal S256 .f32) : FVec Ideal S50000x256 .f32 :=
  Sage.denseRelu 50000 256 256 (lhs128 (k2 x0 x1 x2 x3 x4 x5 x6 x7 x8) (agg128 (k2 x0 x1 x2 x3 x4 x5 x6 x7 x8) x1 x2 (invdeg x2))) (wts128x256 x9 x10) (bias256 x11)
/-- The last layer's output, with no clip: the program's result. -/
def kout (x0 : FVec Ideal S50000x128 .f32) (x1 : IVec S800000 32) (x2 : IVec S800000 32) (x3 : FVec Ideal S128x256 .f32) (x4 : FVec Ideal S128x256 .f32) (x5 : FVec Ideal S256 .f32) (x6 : FVec Ideal S256x128 .f32) (x7 : FVec Ideal S256x128 .f32) (x8 : FVec Ideal S128 .f32) (x9 : FVec Ideal S128x256 .f32) (x10 : FVec Ideal S128x256 .f32) (x11 : FVec Ideal S256 .f32) (x12 : FVec Ideal S256x256 .f32) (x13 : FVec Ideal S256x256 .f32) (x14 : FVec Ideal S256 .f32) : FVec Ideal S50000x256 .f32 :=
  Sage.dense 50000 512 256 (lhs256 (k3 x0 x1 x2 x3 x4 x5 x6 x7 x8 x9 x10 x11) (agg256 (k3 x0 x1 x2 x3 x4 x5 x6 x7 x8 x9 x10 x11) x1 x2 (invdeg x2))) (wts256x256 x12 x13) (bias256 x14)

end Cert.KernelIdeal.Net

namespace Cert.KernelIdeal.Gen

open Cert.KernelIdeal Cert.KernelIdeal.Host Idealize.ShloMosaic Idealize.ShloMosaic.TcCoe Idealize.SL.Sem

variable (m : (ℓ : Loc nD τ sig) → Buf (Elt Ideal) ℓ) (ρ : Dev nD → PrngReg)

/-- Region 0's output array when the region is left. -/
theorem out0 (c : Dev nD) : W2 m ρ c (Proc.devRef .tc main_v26) = Net.k1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 3).trans ((Region0.arr (V1 m ρ) c).trans
    (congr (congr (congrArg (Sage.denseRelu 50000 256 256) (entry0_lhs m ρ c)) (entry0_wts m ρ c)) (entry0_bias m ρ c)))

/-- Region 1's output array when the region is left. -/
theorem out1 (c : Dev nD) : W4 m ρ c (Proc.devRef .tc main_v44) = Net.k2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W3 m ρ c (Proc.devRef .tc main_v40)
      = lhs256 (Net.k1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (agg256 (Net.k1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (invdeg (m ((c : Thread nD τ).loc main_arg2)))) := by
    rw [entry1_lhs m ρ c, out0 m ρ c]
  exact (W4_arr m ρ c 3).trans ((Region1.arr (V3 m ρ) c).trans
    (congr (congr (congrArg (Sage.denseRelu 50000 512 128) e) (entry1_wts m ρ c)) (entry1_bias m ρ c)))

/-- Region 2's output array when the region is left. -/
theorem out2 (c : Dev nD) : W6 m ρ c (Proc.devRef .tc main_v62) = Net.k3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e : W5 m ρ c (Proc.devRef .tc main_v58)
      = lhs128 (Net.k2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg128 (Net.k2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) (invdeg (m ((c : Thread nD τ).loc main_arg2)))) := by
    rw [entry2_lhs m ρ c, out1 m ρ c]
  exact (W6_arr m ρ c 3).trans ((Region2.arr (V5 m ρ) c).trans
    (congr (congr (congrArg (Sage.denseRelu 50000 256 256) e) (entry2_wts m ρ c)) (entry2_bias m ρ c)))

/-- The result buffer at the last boundary: the composition of the four layers of the launch memory's argument arrays. -/
theorem result_at_end (c : Dev nD) : W8 m ρ c (Proc.devRef .tc main_v80) = Net.kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : W7 m ρ c (Proc.devRef .tc main_v76)
      = lhs256 (Net.k3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (agg256 (Net.k3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (invdeg (m ((c : Thread nD τ).loc main_arg2)))) := by
    rw [entry3_lhs m ρ c, out2 m ρ c]
  exact (W8_arr m ρ c 3).trans ((Region3.arr (V7 m ρ) c).trans
    (congr (congr (congrArg (Sage.dense 50000 512 256) e) (entry3_wts m ρ c)) (entry3_bias m ρ c)))

end Cert.KernelIdeal.Gen

end
-- ==== Proof.RefDefs.lean ====
/-
  The reference program's layers as functions of the arrays they read, over the reference's own printed records:
  the inverse in-degree column and the mean of the in-neighbours' rows (the same host operations the kernel program
  applies), and one layer `max (h·ws + n·wn + b) 0` (the last layer without the clip) at each of the three size pairs.
-/
import proofs.«155320_j69733089018244_1_alg».proof.ReferenceIdeal

noncomputable section

namespace Cert.ReferenceIdeal.Layers

open Cert.ReferenceIdeal Idealize.ShloMosaic

variable {F : FTy → Type} [FloatOps F] [Cert.ReferenceIdeal.Facts]
open Facts₀ Facts

/-- `1 / max (deg v) 1` as a column, `deg v` the number of edges whose destination is `v`. -/
def invdeg (dst : IVec S800000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The edge sources as gather start indices: a negative index counts from the end. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The mean of the in-neighbours' rows, 128 columns wide. -/
def agg128 (h : FVec F S50000x128 .f32) (src dst : IVec S800000 32) (inv : FVec F S50000x1 .f32) : FVec F S50000x128 .f32 :=
  mulf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (srcIdx src)))
    (broadcastInDim S50000x128 ![0, 1] bcast_S50000x1_S50000x128_0_1 inv)

/-- The mean of the in-neighbours' rows, 256 columns wide. -/
def agg256 (h : FVec F S50000x256 .f32) (src dst : IVec S800000 32) (inv : FVec F S50000x1 .f32) : FVec F S50000x256 .f32 :=
  mulf
    (Host.scatterAdd scatter_S50000x256_S800000x1_S800000x256_1_0_0_1 (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (srcIdx src)))
    (broadcastInDim S50000x256 ![0, 1] bcast_S50000x1_S50000x256_0_1 inv)

/-- A layer from 128 to 256 columns: `max (h·ws + n·wn + b) 0`. -/
def layer128x256 (h n : FVec F S50000x128 .f32) (ws wn : FVec F S128x256 .f32) (b : FVec F S256 .f32) : FVec F S50000x256 .f32 :=
  maximumf
    (addf (addf (Host.dotGeneral dot_S50000x128_S128x256_S50000x256_1_0_0_1_n_n none h ws)
                (Host.dotGeneral dot_S50000x128_S128x256_S50000x256_1_0_0_1_n_n none n wn))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- A layer from 256 to 128 columns: `max (h·ws + n·wn + b) 0`. -/
def layer256x128 (h n : FVec F S50000x256 .f32) (ws wn : FVec F S256x128 .f32) (b : FVec F S128 .f32) : FVec F S50000x128 .f32 :=
  maximumf
    (addf (addf (Host.dotGeneral dot_S50000x256_S256x128_S50000x128_1_0_0_1_n_n none h ws)
                (Host.dotGeneral dot_S50000x256_S256x128_S50000x128_1_0_0_1_n_n none n wn))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The last layer, from 256 to 256 columns, with no clip: `h·ws + n·wn + b`. -/
def last256x256 (h n : FVec F S50000x256 .f32) (ws wn : FVec F S256x256 .f32) (b : FVec F S256 .f32) : FVec F S50000x256 .f32 :=
  addf (addf (Host.dotGeneral dot_S50000x256_S256x256_S50000x256_1_0_0_1_n_n none h ws)
             (Host.dotGeneral dot_S50000x256_S256x256_S50000x256_1_0_0_1_n_n none n wn))
    (broadcastInDim S50000x256 ![0, 1] bcast_S1x256_S50000x256_0_1 (broadcastInDim S1x256 ![1] bcast_S256_S1x256_1 b))

end Cert.ReferenceIdeal.Layers

end
-- ==== Proof.RefStages.lean ====
/-
  The reference program's result as a composition of four layers of its fifteen argument arrays: with `inv` the inverse
  in-degree column of the edge destinations, `h₁ = layer (x₀)`, `h₂ = layer (h₁)`, `h₃ = layer (h₂)` and the result
  `last (h₃)`, each layer taking its input and the mean of its in-neighbours' rows.
-/
import proofs.«155320_j69733089018244_1_alg».proof.Proof.Gen.ReferenceIdeal.Run
import proofs.«155320_j69733089018244_1_alg».proof.Proof.RefDefs

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- The first layer's output, 256 columns. -/
def h1 (x0 : FVec F S50000x128 .f32) (x1 : IVec S800000 32) (x2 : IVec S800000 32) (x3 : FVec F S128x256 .f32) (x4 : FVec F S128x256 .f32) (x5 : FVec F S256 .f32) : FVec F S50000x256 .f32 :=
  layer128x256 x0 (agg128 x0 x1 x2 (invdeg x2)) x3 x4 x5
/-- The second layer's output, 128 columns. -/
def h2 (x0 : FVec F S50000x128 .f32) (x1 : IVec S800000 32) (x2 : IVec S800000 32) (x3 : FVec F S128x256 .f32) (x4 : FVec F S128x256 .f32) (x5 : FVec F S256 .f32) (x6 : FVec F S256x128 .f32) (x7 : FVec F S256x128 .f32) (x8 : FVec F S128 .f32) : FVec F S50000x128 .f32 :=
  layer256x128 (h1 x0 x1 x2 x3 x4 x5) (agg256 (h1 x0 x1 x2 x3 x4 x5) x1 x2 (invdeg x2)) x6 x7 x8
/-- The third layer's output, 256 columns. -/
def h3 (x0 : FVec F S50000x128 .f32) (x1 : IVec S800000 32) (x2 : IVec S800000 32) (x3 : FVec F S128x256 .f32) (x4 : FVec F S128x256 .f32) (x5 : FVec F S256 .f32) (x6 : FVec F S256x128 .f32) (x7 : FVec F S256x128 .f32) (x8 : FVec F S128 .f32) (x9 : FVec F S128x256 .f32) (x10 : FVec F S128x256 .f32) (x11 : FVec F S256 .f32) : FVec F S50000x256 .f32 :=
  layer128x256 (h2 x0 x1 x2 x3 x4 x5 x6 x7 x8) (agg128 (h2 x0 x1 x2 x3 x4 x5 x6 x7 x8) x1 x2 (invdeg x2)) x9 x10 x11
/-- The last layer's output: the program's result. -/
def out (x0 : FVec F S50000x128 .f32) (x1 : IVec S800000 32) (x2 : IVec S800000 32) (x3 : FVec F S128x256 .f32) (x4 : FVec F S128x256 .f32) (x5 : FVec F S256 .f32) (x6 : FVec F S256x128 .f32) (x7 : FVec F S256x128 .f32) (x8 : FVec F S128 .f32) (x9 : FVec F S128x256 .f32) (x10 : FVec F S128x256 .f32) (x11 : FVec F S256 .f32) (x12 : FVec F S256x256 .f32) (x13 : FVec F S256x256 .f32) (x14 : FVec F S256 .f32) : FVec F S50000x256 .f32 :=
  last256x256 (h3 x0 x1 x2 x3 x4 x5 x6 x7 x8 x9 x10 x11) (agg256 (h3 x0 x1 x2 x3 x4 x5 x6 x7 x8 x9 x10 x11) x1 x2 (invdeg x2)) x12 x13 x14

set_option maxRecDepth 16384 in
/-- The run's result term is that composition of the launch memory's argument arrays: the same operations on the same
    operands, named. -/
theorem result_eq (m : (ℓ : Loc nD τ sig) → Buf (Elt F) ℓ) (c : Dev nD) :
    Cert.ReferenceIdeal.Value.res_main_v83 m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v83 out h3 h2 h1 last256x256 layer128x256 layer256x128 agg128 agg256 invdeg srcIdx
  rfl

end Cert.ReferenceIdeal.Layers

end
-- ==== Proof.Bridge.lean ====
/-
  The two programs' layers are one function. Each program gathers, sums and scales the neighbours' rows by the same host
  operations; the kernel program then multiplies `[h | n]` by `[ws ; wn]` in one product of twice the contraction length,
  where the reference adds the two products `h·ws` and `n·wn`. A sum over the concatenated contraction axis is the sum over
  its first half plus the sum over its second half, so the two agree entry by entry on the extended reals.
-/
import proofs.«155320_j69733089018244_1_alg».proof.Proof.Dense
import proofs.«155320_j69733089018244_1_alg».proof.Proof.KHostDefs
import proofs.«155320_j69733089018244_1_alg».proof.Proof.RefDefs
import proofs.«155320_j69733089018244_1_alg».proof.Proof.Gen.KernelIdeal
import proofs.«155320_j69733089018244_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open scoped BigOperators

/-! ## The shared host stages are the same functions in the two programs -/

/-- The two programs turn the edge sources into gather indices by the same operations over equal shape facts. -/
theorem srcIdx_eq (src : IVec Cert.KernelIdeal.S800000 32) :
    Cert.KernelIdeal.Host.srcIdx src = Cert.ReferenceIdeal.Layers.srcIdx src := by
  unfold Cert.KernelIdeal.Host.srcIdx Cert.ReferenceIdeal.Layers.srcIdx
  rfl

theorem invdeg_eq (dst : IVec Cert.KernelIdeal.S800000 32) :
    Cert.KernelIdeal.Host.invdeg (F := Ideal) dst = Cert.ReferenceIdeal.Layers.invdeg (F := Ideal) dst := by
  unfold Cert.KernelIdeal.Host.invdeg Cert.ReferenceIdeal.Layers.invdeg
  rfl

theorem agg128_eq (h : FVec Ideal Cert.KernelIdeal.S50000x128 .f32) (src dst : IVec Cert.KernelIdeal.S800000 32) (inv : FVec Ideal Cert.KernelIdeal.S50000x1 .f32) :
    Cert.KernelIdeal.Host.agg128 (F := Ideal) h src dst inv = Cert.ReferenceIdeal.Layers.agg128 (F := Ideal) h src dst inv := by
  unfold Cert.KernelIdeal.Host.agg128 Cert.ReferenceIdeal.Layers.agg128
  rw [srcIdx_eq]
  rfl

theorem agg256_eq (h : FVec Ideal Cert.KernelIdeal.S50000x256 .f32) (src dst : IVec Cert.KernelIdeal.S800000 32) (inv : FVec Ideal Cert.KernelIdeal.S50000x1 .f32) :
    Cert.KernelIdeal.Host.agg256 (F := Ideal) h src dst inv = Cert.ReferenceIdeal.Layers.agg256 (F := Ideal) h src dst inv := by
  unfold Cert.KernelIdeal.Host.agg256 Cert.ReferenceIdeal.Layers.agg256
  rw [srcIdx_eq]
  rfl

/-! ## One layer: the product over the concatenated axis is the sum of the two products -/

/-! ## A dense layer over a concatenated contraction axis -/

/-- When the left operand is `[h | n]` by columns and the weights are `[ws ; wn]` by rows, entry `(p, q)` of the dense
    layer is the sum over the first stretch plus the sum over the second, `h·ws + n·wn`, plus the bias. -/
theorem dense_cat (M D N : Nat) (A : (⟨2, ![M, D + D]⟩ : Shape).Idx → EReal) (W : (⟨2, ![D + D, N]⟩ : Shape).Idx → EReal)
    (c : (⟨2, ![1, N]⟩ : Shape).Idx → EReal)
    (h n : (⟨2, ![M, D]⟩ : Shape).Idx → EReal) (ws wn : (⟨2, ![D, N]⟩ : Shape).Idx → EReal)
    (hA₁ : ∀ (p : Fin M) (k : Fin D), A (ix2 p (Fin.castAdd D k)) = h (ix2 p k))
    (hA₂ : ∀ (p : Fin M) (k : Fin D), A (ix2 p (Fin.natAdd D k)) = n (ix2 p k))
    (hW₁ : ∀ (k : Fin D) (q : Fin N), W (ix2 (Fin.castAdd D k) q) = ws (ix2 k q))
    (hW₂ : ∀ (k : Fin D) (q : Fin N), W (ix2 (Fin.natAdd D k) q) = wn (ix2 k q))
    (p : Fin M) (q : Fin N) :
    Sage.dense M (D + D) N A W c (ix2 p q)
      = ((∑ k : Fin D, h (ix2 p k) * ws (ix2 k q)) + ∑ k : Fin D, n (ix2 p k) * wn (ix2 k q)) + c (ix2 (0 : Fin 1) q) := by
  refine (Sage.dense_ix2 M (D + D) N A W c p q).trans ?_
  refine congrArg (· + c (ix2 (0 : Fin 1) q)) ?_
  refine (Sage.sum_halves D _).trans ?_
  refine congrArg₂ (· + ·) (Finset.sum_congr rfl fun k _ => ?_) (Finset.sum_congr rfl fun k _ => ?_)
  · rw [hA₁, hW₁]
  · rw [hA₂, hW₂]

/-! ## The reference's bias row and clip level at an index -/

/-- A row of `N` entries broadcast first to one row, then down `M` rows, reads at `(p, q)` its entry `q`. -/
theorem bias_rows_at (M N : Nat) (hN : N ≠ 1) (b : (⟨1, ![N]⟩ : Shape).Idx → EReal)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  refine (broadcastInDim_apply _ h₂ _ (ix2 p q) (ix2 (0 : Fin 1) q) (fun a => match a with
    | ⟨0, _⟩ => by show 0 = if (1 : Nat) = 1 then 0 else p.val; rw [if_pos rfl]
    | ⟨1, _⟩ => by show q.val = if N = 1 then 0 else q.val; rw [if_neg hN])).trans ?_
  exact broadcastInDim_apply _ h₁ b (ix2 (0 : Fin 1) q) (ix1 q) (fun a => match a with
    | ⟨0, _⟩ => by show q.val = if N = 1 then 0 else q.val; rw [if_neg hN])

/-- The clip level, the word `0` broadcast to every entry, is the real number zero. -/
theorem zero_at {s : Shape} (h₀ : (⟨0, ![]⟩ : Shape).BroadcastsInDim s ![]) (i : s.Idx) :
    broadcastInDim s ![] h₀ (constant (F := Ideal) ⟨0, ![]⟩ .f32 0x00000000#32) i = 0 := by
  refine (broadcastInDim_apply _ h₀ _ i ix0 (fun a => a.elim0)).trans ?_
  exact Ideal.ofBits_zero_f32

/-! ## The layer from 128 to 256 columns -/

theorem lhs128_left (h n : FVec Ideal Cert.KernelIdeal.S50000x128 .f32) (p : Fin 50000) (k : Fin 128) :
    Cert.KernelIdeal.Host.lhs128 (F := Ideal) h n (ix2 p (Fin.castAdd 128 k)) = h (ix2 p k) := by
  unfold Cert.KernelIdeal.Host.lhs128
  refine (truncf_apply (φ := .f32) (ψ := .bf16) _ _ _).trans ?_
  exact concatenate_pair_apply_left (t := Cert.KernelIdeal.S50000x256) 1 h n _ (ix2 p (Fin.castAdd 128 k)) rfl (ix2 p k) (fun b => by
    match b with
    | ⟨0, _⟩ => rfl
    | ⟨1, _⟩ => rfl)

theorem lhs128_right (h n : FVec Ideal Cert.KernelIdeal.S50000x128 .f32) (p : Fin 50000) (k : Fin 128) :
    Cert.KernelIdeal.Host.lhs128 (F := Ideal) h n (ix2 p (Fin.natAdd 128 k)) = n (ix2 p k) := by
  unfold Cert.KernelIdeal.Host.lhs128
  refine (truncf_apply (φ := .f32) (ψ := .bf16) _ _ _).trans ?_
  exact concatenate_pair_apply_right (t := Cert.KernelIdeal.S50000x256) 1 h n _ (ix2 p (Fin.natAdd 128 k)) rfl rfl (ix2 p k)
    (fun b hb => by
      match b with
      | ⟨0, _⟩ => rfl
      | ⟨1, _⟩ => exact absurd rfl hb)
    (Nat.add_comm k.val 128)

theorem wts128x256_top (ws wn : FVec Ideal Cert.KernelIdeal.S128x256 .f32) (k : Fin 128) (q : Fin 256) :
    Cert.KernelIdeal.Host.wts128x256 (F := Ideal) ws wn (ix2 (Fin.castAdd 128 k) q) = ws (ix2 k q) := by
  unfold Cert.KernelIdeal.Host.wts128x256
  refine (truncf_apply (φ := .f32) (ψ := .bf16) _ _ _).trans ?_
  exact concatenate_pair_apply_left (t := Cert.KernelIdeal.S256x256) 0 ws wn _ (ix2 (Fin.castAdd 128 k) q) rfl (ix2 k q) (fun b => by
    match b with
    | ⟨0, _⟩ => rfl
    | ⟨1, _⟩ => rfl)

theorem wts128x256_bot (ws wn : FVec Ideal Cert.KernelIdeal.S128x256 .f32) (k : Fin 128) (q : Fin 256) :
    Cert.KernelIdeal.Host.wts128x256 (F := Ideal) ws wn (ix2 (Fin.natAdd 128 k) q) = wn (ix2 k q) := by
  unfold Cert.KernelIdeal.Host.wts128x256
  refine (truncf_apply (φ := .f32) (ψ := .bf16) _ _ _).trans ?_
  exact concatenate_pair_apply_right (t := Cert.KernelIdeal.S256x256) 0 ws wn _ (ix2 (Fin.natAdd 128 k) q) rfl rfl (ix2 k q)
    (fun b hb => by
      match b with
      | ⟨0, _⟩ => exact absurd rfl hb
      | ⟨1, _⟩ => rfl)
    (Nat.add_comm k.val 128)

/-- The reference's product of a 50000 × 128 array with a 128 × 256 one, read at `(p, q)`. -/
theorem dot128x256_at (x : FVec Ideal Cert.ReferenceIdeal.S50000x128 .f32) (w : FVec Ideal Cert.ReferenceIdeal.S128x256 .f32)
    (p : Fin 50000) (q : Fin 256) :
    Host.dotGeneral Cert.ReferenceIdeal.dot_S50000x128_S128x256_S50000x256_1_0_0_1_n_n none x w (ix2 p q)
      = ∑ k : Fin 128, x (ix2 p k) * w (ix2 k q) := by
  refine (Cert.ReferenceIdeal.Read.val_main_v21_apply x w (ix2 p q)).trans ?_
  refine Finset.sum_congr rfl fun k _ => ?_
  refine congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

theorem layer128x256_eq (h n : FVec Ideal Cert.KernelIdeal.S50000x128 .f32) (ws wn : FVec Ideal Cert.KernelIdeal.S128x256 .f32) (b : FVec Ideal Cert.KernelIdeal.S256 .f32) :
    Sage.denseRelu 50000 256 256 (Cert.KernelIdeal.Host.lhs128 (F := Ideal) h n) (Cert.KernelIdeal.Host.wts128x256 (F := Ideal) ws wn) (Cert.KernelIdeal.Host.bias256 (F := Ideal) b)
      = Cert.ReferenceIdeal.Layers.layer128x256 (F := Ideal) h n ws wn b := by
  funext i
  obtain ⟨p, q, rfl⟩ : ∃ (p : Fin 50000) (q : Fin 256), i = ix2 p q := ⟨i 0, i 1, eq_ix2 i⟩
  unfold Cert.ReferenceIdeal.Layers.layer128x256
  rw [maximumf_apply, addf_apply, addf_apply, dot128x256_at, dot128x256_at, bias_rows_at 50000 256 (by decide), zero_at]
  show max (Sage.dense 50000 (128 + 128) 256 _ _ _ (ix2 p q)) 0 = _
  rw [dense_cat 50000 128 256 _ _ _ h n ws wn (lhs128_left h n) (lhs128_right h n) (wts128x256_top ws wn) (wts128x256_bot ws wn)]
  unfold Cert.KernelIdeal.Host.bias256
  rw [shapeCast_a_1a_apply]

/-! ## The layers from 256 columns: `[h | n]` is 50000 × 512, the weights 512 rows -/

theorem lhs256_left (h n : FVec Ideal Cert.KernelIdeal.S50000x256 .f32) (p : Fin 50000) (k : Fin 256) :
    Cert.KernelIdeal.Host.lhs256 (F := Ideal) h n (ix2 p (Fin.castAdd 256 k)) = h (ix2 p k) := by
  unfold Cert.KernelIdeal.Host.lhs256
  refine (truncf_apply (φ := .f32) (ψ := .bf16) _ _ _).trans ?_
  exact concatenate_pair_apply_left (t := Cert.KernelIdeal.S50000x512) 1 h n _ (ix2 p (Fin.castAdd 256 k)) rfl (ix2 p k) (fun b => by
    match b with
    | ⟨0, _⟩ => rfl
    | ⟨1, _⟩ => rfl)

theorem lhs256_right (h n : FVec Ideal Cert.KernelIdeal.S50000x256 .f32) (p : Fin 50000) (k : Fin 256) :
    Cert.KernelIdeal.Host.lhs256 (F := Ideal) h n (ix2 p (Fin.natAdd 256 k)) = n (ix2 p k) := by
  unfold Cert.KernelIdeal.Host.lhs256
  refine (truncf_apply (φ := .f32) (ψ := .bf16) _ _ _).trans ?_
  exact concatenate_pair_apply_right (t := Cert.KernelIdeal.S50000x512) 1 h n _ (ix2 p (Fin.natAdd 256 k)) rfl rfl (ix2 p k)
    (fun b hb => by
      match b with
      | ⟨0, _⟩ => rfl
      | ⟨1, _⟩ => exact absurd rfl hb)
    (Nat.add_comm k.val 256)

theorem wts256x128_top (ws wn : FVec Ideal Cert.KernelIdeal.S256x128 .f32) (k : Fin 256) (q : Fin 128) :
    Cert.KernelIdeal.Host.wts256x128 (F := Ideal) ws wn (ix2 (Fin.castAdd 256 k) q) = ws (ix2 k q) := by
  unfold Cert.KernelIdeal.Host.wts256x128
  refine (truncf_apply (φ := .f32) (ψ := .bf16) _ _ _).trans ?_
  exact concatenate_pair_apply_left (t := Cert.KernelIdeal.S512x128) 0 ws wn _ (ix2 (Fin.castAdd 256 k) q) rfl (ix2 k q) (fun b => by
    match b with
    | ⟨0, _⟩ => rfl
    | ⟨1, _⟩ => rfl)

theorem wts256x128_bot (ws wn : FVec Ideal Cert.KernelIdeal.S256x128 .f32) (k : Fin 256) (q : Fin 128) :
    Cert.KernelIdeal.Host.wts256x128 (F := Ideal) ws wn (ix2 (Fin.natAdd 256 k) q) = wn (ix2 k q) := by
  unfold Cert.KernelIdeal.Host.wts256x128
  refine (truncf_apply (φ := .f32) (ψ := .bf16) _ _ _).trans ?_
  exact concatenate_pair_apply_right (t := Cert.KernelIdeal.S512x128) 0 ws wn _ (ix2 (Fin.natAdd 256 k) q) rfl rfl (ix2 k q)
    (fun b hb => by
      match b with
      | ⟨0, _⟩ => exact absurd rfl hb
      | ⟨1, _⟩ => rfl)
    (Nat.add_comm k.val 256)

theorem wts256x256_top (ws wn : FVec Ideal Cert.KernelIdeal.S256x256 .f32) (k : Fin 256) (q : Fin 256) :
    Cert.KernelIdeal.Host.wts256x256 (F := Ideal) ws wn (ix2 (Fin.castAdd 256 k) q) = ws (ix2 k q) := by
  unfold Cert.KernelIdeal.Host.wts256x256
  refine (truncf_apply (φ := .f32) (ψ := .bf16) _ _ _).trans ?_
  exact concatenate_pair_apply_left (t := Cert.KernelIdeal.S512x256) 0 ws wn _ (ix2 (Fin.castAdd 256 k) q) rfl (ix2 k q) (fun b => by
    match b with
    | ⟨0, _⟩ => rfl
    | ⟨1, _⟩ => rfl)

theorem wts256x256_bot (ws wn : FVec Ideal Cert.KernelIdeal.S256x256 .f32) (k : Fin 256) (q : Fin 256) :
    Cert.KernelIdeal.Host.wts256x256 (F := Ideal) ws wn (ix2 (Fin.natAdd 256 k) q) = wn (ix2 k q) := by
  unfold Cert.KernelIdeal.Host.wts256x256
  refine (truncf_apply (φ := .f32) (ψ := .bf16) _ _ _).trans ?_
  exact concatenate_pair_apply_right (t := Cert.KernelIdeal.S512x256) 0 ws wn _ (ix2 (Fin.natAdd 256 k) q) rfl rfl (ix2 k q)
    (fun b hb => by
      match b with
      | ⟨0, _⟩ => exact absurd rfl hb
      | ⟨1, _⟩ => rfl)
    (Nat.add_comm k.val 256)

/-- The reference's product of a 50000 × 256 array with a 256 × 128 one, read at `(p, q)`: the sum over the one
    contraction position, re-indexed by that position's coordinate. -/
theorem dot256x128_at (x : FVec Ideal Cert.ReferenceIdeal.S50000x256 .f32) (w : FVec Ideal Cert.ReferenceIdeal.S256x128 .f32)
    (p : Fin 50000) (q : Fin 128) :
    Host.dotGeneral Cert.ReferenceIdeal.dot_S50000x256_S256x128_S50000x128_1_0_0_1_n_n none x w (ix2 p q)
      = ∑ k : Fin 256, x (ix2 p k) * w (ix2 k q) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 p q)
      ((contrEquiv1 Cert.ReferenceIdeal.dot_S50000x256_S256x128_S50000x128_1_0_0_1_n_n 256 rfl rfl).symm k) = ix2 p k :=
    funext fun a => Fin.ext (by
      match a with
      | ⟨0, _⟩ => exact Cert.ReferenceIdeal.Read.lhs_main_v40_0 _ _
      | ⟨1, _⟩ => exact (Cert.ReferenceIdeal.Read.lhs_main_v40_1 _ _).trans hk)
  have er : Cert.ReferenceIdeal.dot_S50000x256_S256x128_S50000x128_1_0_0_1_n_n.rhsIdx (ix2 p q)
      ((contrEquiv1 Cert.ReferenceIdeal.dot_S50000x256_S256x128_S50000x128_1_0_0_1_n_n 256 rfl rfl).symm k) = ix2 k q :=
    funext fun a => Fin.ext (by
      match a with
      | ⟨0, _⟩ => exact (Cert.ReferenceIdeal.Read.rhs_main_v40_0 _ _).trans hk
      | ⟨1, _⟩ => exact Cert.ReferenceIdeal.Read.rhs_main_v40_1 _ _)
  rw [el, er]

/-- The same for a 50000 × 256 array times a 256 × 256 one. -/
theorem dot256x256_at (x : FVec Ideal Cert.ReferenceIdeal.S50000x256 .f32) (w : FVec Ideal Cert.ReferenceIdeal.S256x256 .f32)
    (p : Fin 50000) (q : Fin 256) :
    Host.dotGeneral Cert.ReferenceIdeal.dot_S50000x256_S256x256_S50000x256_1_0_0_1_n_n none x w (ix2 p q)
      = ∑ k : Fin 256, x (ix2 p k) * w (ix2 k q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q)
      ((contrEquiv1 Cert.ReferenceIdeal.dot_S50000x256_S256x256_S50000x256_1_0_0_1_n_n 256 rfl rfl).symm k) = ix2 p k :=
    funext fun a => Fin.ext (by
      match a with
      | ⟨0, _⟩ => exact Cert.ReferenceIdeal.Read.lhs_main_v78_0 _ _
      | ⟨1, _⟩ => exact (Cert.ReferenceIdeal.Read.lhs_main_v78_1 _ _).trans hk)
  have er : Cert.ReferenceIdeal.dot_S50000x256_S256x256_S50000x256_1_0_0_1_n_n.rhsIdx (ix2 p q)
      ((contrEquiv1 Cert.ReferenceIdeal.dot_S50000x256_S256x256_S50000x256_1_0_0_1_n_n 256 rfl rfl).symm k) = ix2 k q :=
    funext fun a => Fin.ext (by
      match a with
      | ⟨0, _⟩ => exact (Cert.ReferenceIdeal.Read.rhs_main_v78_0 _ _).trans hk
      | ⟨1, _⟩ => exact Cert.ReferenceIdeal.Read.rhs_main_v78_1 _ _)
  rw [el, er]

theorem layer256x128_eq (h n : FVec Ideal Cert.KernelIdeal.S50000x256 .f32) (ws wn : FVec Ideal Cert.KernelIdeal.S256x128 .f32) (b : FVec Ideal Cert.KernelIdeal.S128 .f32) :
    Sage.denseRelu 50000 512 128 (Cert.KernelIdeal.Host.lhs256 (F := Ideal) h n) (Cert.KernelIdeal.Host.wts256x128 (F := Ideal) ws wn) (Cert.KernelIdeal.Host.bias128 (F := Ideal) b)
      = Cert.ReferenceIdeal.Layers.layer256x128 (F := Ideal) h n ws wn b := by
  funext i
  obtain ⟨p, q, rfl⟩ : ∃ (p : Fin 50000) (q : Fin 128), i = ix2 p q := ⟨i 0, i 1, eq_ix2 i⟩
  unfold Cert.ReferenceIdeal.Layers.layer256x128
  rw [maximumf_apply, addf_apply, addf_apply, dot256x128_at, dot256x128_at, bias_rows_at 50000 128 (by decide), zero_at]
  show max (Sage.dense 50000 (256 + 256) 128 _ _ _ (ix2 p q)) 0 = _
  rw [dense_cat 50000 256 128 _ _ _ h n ws wn (lhs256_left h n) (lhs256_right h n) (wts256x128_top ws wn) (wts256x128_bot ws wn)]
  unfold Cert.KernelIdeal.Host.bias128
  rw [shapeCast_a_1a_apply]

theorem last256x256_eq (h n : FVec Ideal Cert.KernelIdeal.S50000x256 .f32) (ws wn : FVec Ideal Cert.KernelIdeal.S256x256 .f32) (b : FVec Ideal Cert.KernelIdeal.S256 .f32) :
    Sage.dense 50000 512 256 (Cert.KernelIdeal.Host.lhs256 (F := Ideal) h n) (Cert.KernelIdeal.Host.wts256x256 (F := Ideal) ws wn) (Cert.KernelIdeal.Host.bias256 (F := Ideal) b)
      = Cert.ReferenceIdeal.Layers.last256x256 (F := Ideal) h n ws wn b := by
  funext i
  obtain ⟨p, q, rfl⟩ : ∃ (p : Fin 50000) (q : Fin 256), i = ix2 p q := ⟨i 0, i 1, eq_ix2 i⟩
  unfold Cert.ReferenceIdeal.Layers.last256x256
  rw [addf_apply, addf_apply, dot256x256_at, dot256x256_at, bias_rows_at 50000 256 (by decide)]
  show Sage.dense 50000 (256 + 256) 256 _ _ _ (ix2 p q) = _
  rw [dense_cat 50000 256 256 _ _ _ h n ws wn (lhs256_left h n) (lhs256_right h n) (wts256x256_top ws wn) (wts256x256_bot ws wn)]
  unfold Cert.KernelIdeal.Host.bias256
  rw [shapeCast_a_1a_apply]

end Cert.Bridge

end
-- ==== Proof.lean ====
/-
  The certificate's claims.

  Both programs are four GraphSAGE layers over the same graph. A layer takes the node features `h`, averages each node's
  in-neighbours' rows into `n` (a gather along the edge sources, a sum into the edge destinations, a division by the
  in-degree clipped below at one: the same host operations in both programs), and returns `max (h·ws + n·wn + b) 0`, the
  last layer without the clip. The reference computes the two products and adds them; the kernel program concatenates
  `[h | n]` and `[ws ; wn]` and computes one product of twice the contraction length, in a kernel over ten blocks of 5000
  rows. On the extended reals the one sum of `D + D` products is the sum of the first `D` plus the sum of the last `D`,
  which needs commutativity and associativity of addition only, so the precondition is never opened. The kernel's result
  is read off its run region by region (each region's output array is the dense layer of its three input arrays, the ten
  row blocks tiling the array), the reference's off its run, and the two compositions agree layer by layer.
-/
import proofs.«155320_j69733089018244_1_alg».proof.Defs
import proofs.«155320_j69733089018244_1_alg».proof.Proof.Gen.Kernel.Frame
import proofs.«155320_j69733089018244_1_alg».proof.Proof.Gen.KernelIdeal.Frame
import proofs.«155320_j69733089018244_1_alg».proof.Proof.Gen.ReferenceIdeal.Run
import proofs.«155320_j69733089018244_1_alg».proof.Proof.Gen.Pre_finite_inputs
import proofs.«155320_j69733089018244_1_alg».proof.Proof.KRun
import proofs.«155320_j69733089018244_1_alg».proof.Proof.KValue
import proofs.«155320_j69733089018244_1_alg».proof.Proof.RefStages
import proofs.«155320_j69733089018244_1_alg».proof.Proof.Bridge
import Idealize.ShloMosaic.Adequacy
import Idealize.ShloMosaic.Init

noncomputable section

namespace Cert.Proof

open Idealize.ShloMosaic Idealize.SL.Sem

/-! ## The two compositions agree, layer by layer -/

theorem k1_eq (x0 : FVec Ideal Cert.KernelIdeal.S50000x128 .f32) (x1 : IVec Cert.KernelIdeal.S800000 32) (x2 : IVec Cert.KernelIdeal.S800000 32) (x3 : FVec Ideal Cert.KernelIdeal.S128x256 .f32) (x4 : FVec Ideal Cert.KernelIdeal.S128x256 .f32) (x5 : FVec Ideal Cert.KernelIdeal.S256 .f32) :
    Cert.KernelIdeal.Net.k1 x0 x1 x2 x3 x4 x5 = Cert.ReferenceIdeal.Layers.h1 (F := Ideal) x0 x1 x2 x3 x4 x5 := by
  unfold Cert.KernelIdeal.Net.k1 Cert.ReferenceIdeal.Layers.h1
  rw [Cert.Bridge.layer128x256_eq, Cert.Bridge.agg128_eq, Cert.Bridge.invdeg_eq]

theorem k2_eq (x0 : FVec Ideal Cert.KernelIdeal.S50000x128 .f32) (x1 : IVec Cert.KernelIdeal.S800000 32) (x2 : IVec Cert.KernelIdeal.S800000 32) (x3 : FVec Ideal Cert.KernelIdeal.S128x256 .f32) (x4 : FVec Ideal Cert.KernelIdeal.S128x256 .f32) (x5 : FVec Ideal Cert.KernelIdeal.S256 .f32) (x6 : FVec Ideal Cert.KernelIdeal.S256x128 .f32) (x7 : FVec Ideal Cert.KernelIdeal.S256x128 .f32) (x8 : FVec Ideal Cert.KernelIdeal.S128 .f32) :
    Cert.KernelIdeal.Net.k2 x0 x1 x2 x3 x4 x5 x6 x7 x8 = Cert.ReferenceIdeal.Layers.h2 (F := Ideal) x0 x1 x2 x3 x4 x5 x6 x7 x8 := by
  unfold Cert.KernelIdeal.Net.k2 Cert.ReferenceIdeal.Layers.h2
  rw [k1_eq, Cert.Bridge.layer256x128_eq, Cert.Bridge.agg256_eq, Cert.Bridge.invdeg_eq]

theorem k3_eq (x0 : FVec Ideal Cert.KernelIdeal.S50000x128 .f32) (x1 : IVec Cert.KernelIdeal.S800000 32) (x2 : IVec Cert.KernelIdeal.S800000 32) (x3 : FVec Ideal Cert.KernelIdeal.S128x256 .f32) (x4 : FVec Ideal Cert.KernelIdeal.S128x256 .f32) (x5 : FVec Ideal Cert.KernelIdeal.S256 .f32) (x6 : FVec Ideal Cert.KernelIdeal.S256x128 .f32) (x7 : FVec Ideal Cert.KernelIdeal.S256x128 .f32) (x8 : FVec Ideal Cert.KernelIdeal.S128 .f32) (x9 : FVec Ideal Cert.KernelIdeal.S128x256 .f32) (x10 : FVec Ideal Cert.KernelIdeal.S128x256 .f32) (x11 : FVec Ideal Cert.KernelIdeal.S256 .f32) :
    Cert.KernelIdeal.Net.k3 x0 x1 x2 x3 x4 x5 x6 x7 x8 x9 x10 x11 = Cert.ReferenceIdeal.Layers.h3 (F := Ideal) x0 x1 x2 x3 x4 x5 x6 x7 x8 x9 x10 x11 := by
  unfold Cert.KernelIdeal.Net.k3 Cert.ReferenceIdeal.Layers.h3
  rw [k2_eq, Cert.Bridge.layer128x256_eq, Cert.Bridge.agg128_eq, Cert.Bridge.invdeg_eq]

theorem kout_eq (x0 : FVec Ideal Cert.KernelIdeal.S50000x128 .f32) (x1 : IVec Cert.KernelIdeal.S800000 32) (x2 : IVec Cert.KernelIdeal.S800000 32) (x3 : FVec Ideal Cert.KernelIdeal.S128x256 .f32) (x4 : FVec Ideal Cert.KernelIdeal.S128x256 .f32) (x5 : FVec Ideal Cert.KernelIdeal.S256 .f32) (x6 : FVec Ideal Cert.KernelIdeal.S256x128 .f32) (x7 : FVec Ideal Cert.KernelIdeal.S256x128 .f32) (x8 : FVec Ideal Cert.KernelIdeal.S128 .f32) (x9 : FVec Ideal Cert.KernelIdeal.S128x256 .f32) (x10 : FVec Ideal Cert.KernelIdeal.S128x256 .f32) (x11 : FVec Ideal Cert.KernelIdeal.S256 .f32) (x12 : FVec Ideal Cert.KernelIdeal.S256x256 .f32) (x13 : FVec Ideal Cert.KernelIdeal.S256x256 .f32) (x14 : FVec Ideal Cert.KernelIdeal.S256 .f32) :
    Cert.KernelIdeal.Net.kout x0 x1 x2 x3 x4 x5 x6 x7 x8 x9 x10 x11 x12 x13 x14 = Cert.ReferenceIdeal.Layers.out (F := Ideal) x0 x1 x2 x3 x4 x5 x6 x7 x8 x9 x10 x11 x12 x13 x14 := by
  unfold Cert.KernelIdeal.Net.kout Cert.ReferenceIdeal.Layers.out
  rw [k3_eq, Cert.Bridge.last256x256_eq, Cert.Bridge.agg256_eq, Cert.Bridge.invdeg_eq]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the composition of the four layers of the argument arrays in the result buffer. -/
theorem algebraic : Cert.algebraic_KernelIdeal_ReferenceIdeal := by
  intro m ρ m' ρ' _ hagree
  refine ⟨fun c => Cert.KernelIdeal.Net.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Gen.result_at_end m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14⟩ := hagree c
    rw [Cert.ReferenceIdeal.Layers.result_eq m' c, g0, g1, g2, g3, g4, g5, g6, g7, g8, g9, g10, g11, g12, g13, g14]
    exact (kout_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
